-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x257 : Shape := ⟨3, ![8, 2048, 257]⟩
abbrev S257x257 : Shape := ⟨2, ![257, 257]⟩
abbrev S257 : Shape := ⟨1, ![257]⟩
abbrev S_ : Shape := ⟨0, ![]⟩

class Facts : Prop where
  bcast_S_S8x2048x257 : S_.BroadcastsInDim S8x2048x257 (![] : Fin 0 → Fin S8x2048x257.rank)
  reducesTo_S8x2048x257_S_d0_1_2 : S8x2048x257.ReducesTo [0, 1, 2] S_
  h_S_ : 0 < S_.numel
  bcast_S_S257x257 : S_.BroadcastsInDim S257x257 (![] : Fin 0 → Fin S257x257.rank)
  reducesTo_S257x257_S_d0_1 : S257x257.ReducesTo [0, 1] S_
  bcast_S_S257 : S_.BroadcastsInDim S257 (![] : Fin 0 → Fin S257.rank)
  reducesTo_S257_S_d0 : S257.ReducesTo [0] S_

variable [Facts]

def fn_part3 {F : FTy → Type} [FloatOps F] (main_v48 : IVec S_ 1) (main_v49 : FVec F S257 .f32) (main_v50 : FVec F S257 .f32) : IVec S_ 1 :=
  let main_v51 : IVec S257 1 := cmpf .olt main_v49 main_v50
  let main_c_19 : IVec S_ 1 := constantI S_ 1 1#1
  let main_v52 : IVec S_ 1 := (fun x v => Host.reduce IntOp.andi x v reducesTo_S257_S_d0 h_S_) main_v51 main_c_19
  let main_v53 : IVec S_ 1 := andi main_v48 main_v52
  main_v53

def fn_part2 {F : FTy → Type} [FloatOps F] (main_arg7 : FVec F S257x257 .f32) (main_arg8 : FVec F S257 .f32) (main_arg9 : FVec F S257x257 .f32) (main_arg10 : FVec F S257 .f32) (main_v33 : IVec S_ 1) : IVec S_ 1 :=
  let main_v34 : FVec F S257x257 .f32 := Host.absf main_arg7
  let main_cst_12 : FVec F S_ .f32 := constant S_ .f32 0x7F800000#32
  let main_v35 : FVec F S257x257 .f32 := broadcastInDim S257x257 ![] bcast_S_S257x257 main_cst_12
  let main_v36 : IVec S257x257 1 := cmpf .olt main_v34 main_v35
  let main_c_13 : IVec S_ 1 := constantI S_ 1 1#1
  let main_v37 : IVec S_ 1 := (fun x v => Host.reduce IntOp.andi x v reducesTo_S257x257_S_d0_1 h_S_) main_v36 main_c_13
  let main_v38 : IVec S_ 1 := andi main_v33 main_v37
  let main_v39 : FVec F S257 .f32 := Host.absf main_arg8
  let main_cst_14 : FVec F S_ .f32 := constant S_ .f32 0x7F800000#32
  let main_v40 : FVec F S257 .f32 := broadcastInDim S257 ![] bcast_S_S257 main_cst_14
  let main_v41 : IVec S257 1 := cmpf .olt main_v39 main_v40
  let main_c_15 : IVec S_ 1 := constantI S_ 1 1#1
  let main_v42 : IVec S_ 1 := (fun x v => Host.reduce IntOp.andi x v reducesTo_S257_S_d0 h_S_) main_v41 main_c_15
  let main_v43 : IVec S_ 1 := andi main_v38 main_v42
  let main_v44 : FVec F S257x257 .f32 := Host.absf main_arg9
  let main_cst_16 : FVec F S_ .f32 := constant S_ .f32 0x7F800000#32
  let main_v45 : FVec F S257x257 .f32 := broadcastInDim S257x257 ![] bcast_S_S257x257 main_cst_16
  let main_v46 : IVec S257x257 1 := cmpf .olt main_v44 main_v45
  let main_c_17 : IVec S_ 1 := constantI S_ 1 1#1
  let main_v47 : IVec S_ 1 := (fun x v => Host.reduce IntOp.andi x v reducesTo_S257x257_S_d0_1 h_S_) main_v46 main_c_17
  let main_v48 : IVec S_ 1 := andi main_v43 main_v47
  let main_v49 : FVec F S257 .f32 := Host.absf main_arg10
  let main_cst_18 : FVec F S_ .f32 := constant S_ .f32 0x7F800000#32
  let main_v50 : FVec F S257 .f32 := broadcastInDim S257 ![] bcast_S_S257 main_cst_18
  fn_part3 (F := F) main_v48 main_v49 main_v50

def fn_part1 {F : FTy → Type} [FloatOps F] (main_arg4 : FVec F S257 .f32) (main_arg5 : FVec F S257x257 .f32) (main_arg6 : FVec F S257 .f32) (main_arg7 : FVec F S257x257 .f32) (main_arg8 : FVec F S257 .f32) (main_arg9 : FVec F S257x257 .f32) (main_arg10 : FVec F S257 .f32) (main_v13 : IVec S_ 1) (main_v16 : IVec S257x257 1) : IVec S_ 1 :=
  let main_c_5 : IVec S_ 1 := constantI S_ 1 1#1
  let main_v17 : IVec S_ 1 := (fun x v => Host.reduce IntOp.andi x v reducesTo_S257x257_S_d0_1 h_S_) main_v16 main_c_5
  let main_v18 : IVec S_ 1 := andi main_v13 main_v17
  let main_v19 : FVec F S257 .f32 := Host.absf main_arg4
  let main_cst_6 : FVec F S_ .f32 := constant S_ .f32 0x7F800000#32
  let main_v20 : FVec F S257 .f32 := broadcastInDim S257 ![] bcast_S_S257 main_cst_6
  let main_v21 : IVec S257 1 := cmpf .olt main_v19 main_v20
  let main_c_7 : IVec S_ 1 := constantI S_ 1 1#1
  let main_v22 : IVec S_ 1 := (fun x v => Host.reduce IntOp.andi x v reducesTo_S257_S_d0 h_S_) main_v21 main_c_7
  let main_v23 : IVec S_ 1 := andi main_v18 main_v22
  let main_v24 : FVec F S257x257 .f32 := Host.absf main_arg5
  let main_cst_8 : FVec F S_ .f32 := constant S_ .f32 0x7F800000#32
  let main_v25 : FVec F S257x257 .f32 := broadcastInDim S257x257 ![] bcast_S_S257x257 main_cst_8
  let main_v26 : IVec S257x257 1 := cmpf .olt main_v24 main_v25
  let main_c_9 : IVec S_ 1 := constantI S_ 1 1#1
  let main_v27 : IVec S_ 1 := (fun x v => Host.reduce IntOp.andi x v reducesTo_S257x257_S_d0_1 h_S_) main_v26 main_c_9
  let main_v28 : IVec S_ 1 := andi main_v23 main_v27
  let main_v29 : FVec F S257 .f32 := Host.absf main_arg6
  let main_cst_10 : FVec F S_ .f32 := constant S_ .f32 0x7F800000#32
  let main_v30 : FVec F S257 .f32 := broadcastInDim S257 ![] bcast_S_S257 main_cst_10
  let main_v31 : IVec S257 1 := cmpf .olt main_v29 main_v30
  let main_c_11 : IVec S_ 1 := constantI S_ 1 1#1
  let main_v32 : IVec S_ 1 := (fun x v => Host.reduce IntOp.andi x v reducesTo_S257_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x257 .f32) (main_arg1 : FVec F S8x2048x257 .f32) (main_arg2 : FVec F S8x2048x257 .f32) (main_arg3 : FVec F S257x257 .f32) (main_arg4 : FVec F S257 .f32) (main_arg5 : FVec F S257x257 .f32) (main_arg6 : FVec F S257 .f32) (main_arg7 : FVec F S257x257 .f32) (main_arg8 : FVec F S257 .f32) (main_arg9 : FVec F S257x257 .f32) (main_arg10 : FVec F S257 .f32) : IVec S_ 1 :=
  let main_v0 : FVec F S8x2048x257 .f32 := Host.absf main_arg0
  let main_cst : FVec F S_ .f32 := constant S_ .f32 0x7F800000#32
  let main_v1 : FVec F S8x2048x257 .f32 := broadcastInDim S8x2048x257 ![] bcast_S_S8x2048x257 main_cst
  let main_v2 : IVec S8x2048x257 1 := cmpf .olt main_v0 main_v1
  let main_c : IVec S_ 1 := constantI S_ 1 1#1
  let main_v3 : IVec S_ 1 := (fun x v => Host.reduce IntOp.andi x v reducesTo_S8x2048x257_S_d0_1_2 h_S_) main_v2 main_c
  let main_v4 : FVec F S8x2048x257 .f32 := Host.absf main_arg1
  let main_cst_0 : FVec F S_ .f32 := constant S_ .f32 0x7F800000#32
  let main_v5 : FVec F S8x2048x257 .f32 := broadcastInDim S8x2048x257 ![] bcast_S_S8x2048x257 main_cst_0
  let main_v6 : IVec S8x2048x257 1 := cmpf .olt main_v4 main_v5
  let main_c_1 : IVec S_ 1 := constantI S_ 1 1#1
  let main_v7 : IVec S_ 1 := (fun x v => Host.reduce IntOp.andi x v reducesTo_S8x2048x257_S_d0_1_2 h_S_) main_v6 main_c_1
  let main_v8 : IVec S_ 1 := andi main_v3 main_v7
  let main_v9 : FVec F S8x2048x257 .f32 := Host.absf main_arg2
  let main_cst_2 : FVec F S_ .f32 := constant S_ .f32 0x7F800000#32
  let main_v10 : FVec F S8x2048x257 .f32 := broadcastInDim S8x2048x257 ![] bcast_S_S8x2048x257 main_cst_2
  let main_v11 : IVec S8x2048x257 1 := cmpf .olt main_v9 main_v10
  let main_c_3 : IVec S_ 1 := constantI S_ 1 1#1
  let main_v12 : IVec S_ 1 := (fun x v => Host.reduce IntOp.andi x v reducesTo_S8x2048x257_S_d0_1_2 h_S_) main_v11 main_c_3
  let main_v13 : IVec S_ 1 := andi main_v8 main_v12
  let main_v14 : FVec F S257x257 .f32 := Host.absf main_arg3
  let main_cst_4 : FVec F S_ .f32 := constant S_ .f32 0x7F800000#32
  let main_v15 : FVec F S257x257 .f32 := broadcastInDim S257x257 ![] bcast_S_S257x257 main_cst_4
  let main_v16 : IVec S257x257 1 := cmpf .olt main_v14 main_v15
  fn_part1 (F := F) main_arg4 main_arg5 main_arg6 main_arg7 main_arg8 main_arg9 main_arg10 main_v13 main_v16
-- ==== Kernel.lean ====
abbrev S8x2048x257 : Shape := ⟨3, ![8, 2048, 257]⟩
abbrev S257x257 : Shape := ⟨2, ![257, 257]⟩
abbrev S257 : Shape := ⟨1, ![257]⟩
abbrev S1x1024x257 : Shape := ⟨3, ![1, 1024, 257]⟩
abbrev S1024x257 : Shape := ⟨2, ![1024, 257]⟩
abbrev S1x257 : Shape := ⟨2, ![1, 257]⟩
abbrev S1x512x257 : Shape := ⟨3, ![1, 512, 257]⟩
abbrev S1x2048x257 : Shape := ⟨3, ![1, 2048, 257]⟩
abbrev S512x257 : Shape := ⟨2, ![512, 257]⟩
abbrev S2048x257 : Shape := ⟨2, ![2048, 257]⟩
abbrev S512x2048 : Shape := ⟨2, ![512, 2048]⟩

abbrev nBuf : Space → Nat
  | .hbm => 19
  | .vmem => 28
  | .smem => 0
  | _ => 0

abbrev bufTy : (tb : Table) → Fin (tcTables nBuf tb) → BufTy
  | .hbm, ⟨0, _⟩ => ⟨S8x2048x257, .f32⟩
  | .hbm, ⟨1, _⟩ => ⟨S8x2048x257, .f32⟩
  | .hbm, ⟨2, _⟩ => ⟨S8x2048x257, .f32⟩
  | .hbm, ⟨3, _⟩ => ⟨S257x257, .f32⟩
  | .hbm, ⟨4, _⟩ => ⟨S257, .f32⟩
  | .hbm, ⟨5, _⟩ => ⟨S257x257, .f32⟩
  | .hbm, ⟨6, _⟩ => ⟨S257, .f32⟩
  | .hbm, ⟨7, _⟩ => ⟨S257x257, .f32⟩
  | .hbm, ⟨8, _⟩ => ⟨S257, .f32⟩
  | .hbm, ⟨9, _⟩ => ⟨S257x257, .f32⟩
  | .hbm, ⟨10, _⟩ => ⟨S257, .f32⟩
  | .hbm, ⟨11, _⟩ => ⟨S257x257, .f32⟩
  | .hbm, ⟨12, _⟩ => ⟨S257x257, .f32⟩
  | .hbm, ⟨13, _⟩ => ⟨S257x257, .f32⟩
  | .hbm, ⟨14, _⟩ => ⟨S257x257, .f32⟩
  | .hbm, ⟨15, _⟩ => ⟨S8x2048x257, .bf16⟩
  | .hbm, ⟨16, _⟩ => ⟨S8x2048x257, .bf16⟩
  | .hbm, ⟨17, _⟩ => ⟨S8x2048x257, .bf16⟩
  | .hbm, ⟨18, _⟩ => ⟨S8x2048x257, .f32⟩
  | .local _ .vmem, ⟨0, _⟩ => ⟨S1x1024x257, .f32⟩
  | .local _ .vmem, ⟨1, _⟩ => ⟨S1x1024x257, .f32⟩
  | .local _ .vmem, ⟨2, _⟩ => ⟨S1x1024x257, .f32⟩
  | .local _ .vmem, ⟨3, _⟩ => ⟨S1x1024x257, .f32⟩
  | .local _ .vmem, ⟨4, _⟩ => ⟨S1x1024x257, .f32⟩
  | .local _ .vmem, ⟨5, _⟩ => ⟨S1x1024x257, .f32⟩
  | .local _ .vmem, ⟨6, _⟩ => ⟨S257x257, .f32⟩
  | .local _ .vmem, ⟨7, _⟩ => ⟨S257, .f32⟩
  | .local _ .vmem, ⟨8, _⟩ => ⟨S257x257, .f32⟩
  | .local _ .vmem, ⟨9, _⟩ => ⟨S257, .f32⟩
  | .local _ .vmem, ⟨10, _⟩ => ⟨S257x257, .f32⟩
  | .local _ .vmem, ⟨11, _⟩ => ⟨S257, .f32⟩
  | .local _ .vmem, ⟨12, _⟩ => ⟨S1x1024x257, .bf16⟩
  | .local _ .vmem, ⟨13, _⟩ => ⟨S1x1024x257, .bf16⟩
  | .local _ .vmem, ⟨14, _⟩ => ⟨S1x1024x257, .bf16⟩
  | .local _ .vmem, ⟨15, _⟩ => ⟨S1x1024x257, .bf16⟩
  | .local _ .vmem, ⟨16, _⟩ => ⟨S1x1024x257, .bf16⟩
  | .local _ .vmem, ⟨17, _⟩ => ⟨S1x1024x257, .bf16⟩
  | .local _ .vmem, ⟨18, _⟩ => ⟨S1x512x257, .bf16⟩
  | .local _ .vmem, ⟨19, _⟩ => ⟨S1x512x257, .bf16⟩
  | .local _ .vmem, ⟨20, _⟩ => ⟨S1x2048x257, .bf16⟩
  | .local _ .vmem, ⟨21, _⟩ => ⟨S1x2048x257, .bf16⟩
  | .local _ .vmem, ⟨22, _⟩ => ⟨S1x2048x257, .bf16⟩
  | .local _ .vmem, ⟨23, _⟩ => ⟨S1x2048x257, .bf16⟩
  | .local _ .vmem, ⟨24, _⟩ => ⟨S257x257, .f32⟩
  | .local _ .vmem, ⟨25, _⟩ => ⟨S257, .f32⟩
  | .local _ .vmem, ⟨26, _⟩ => ⟨S1x512x257, .f32⟩
  | .local _ .vmem, ⟨27, _⟩ => ⟨S1x512x257, .f32⟩
  | _, _ => ⟨S8x2048x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem5_1 : DmaSem sig := 27

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S257x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S257x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S257x257 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S257 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x257 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x257 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x257 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x257 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x257 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x257 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S257x257 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S257 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x257 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S257x257_S257x257_1_0 : S257x257.Transposes [1, 0] S257x257
  inb_S1x1024x257_S1x1024x257_0_0_0 : ∀ a, (![0, 0, 0] : Fin 3 → Nat) a + S1x1024x257.size a ≤ S1x1024x257.size a
  h_S1x1024x257 : 0 < S1x1024x257.numel
  shapeCasts_S1x1024x257_S1024x257 : S1x1024x257.ShapeCasts S1024x257
  bitsLt_bf16_f32 : FTy.bits .bf16 < FTy.bits .f32
  inb_S257x257_S257x257_0_0 : ∀ a, (![0, 0] : Fin 2 → Nat) a + S257x257.size a ≤ S257x257.size a
  h_S257x257 : 0 < S257x257.numel
  shapeCasts_S257x257_S257x257 : S257x257.ShapeCasts S257x257
  inb_S257_S257_0 : ∀ a, (![0] : Fin 1 → Nat) a + S257.size a ≤ S257.size a
  h_S257 : 0 < S257.numel
  shapeCasts_S257_S1x257 : S257.ShapeCasts S1x257
  broadcasts_S1x257_S1024x257 : S1x257.Broadcasts S1024x257
  shapeCasts_S1024x257_S1x1024x257 : S1024x257.ShapeCasts S1x1024x257
  packedbf16_S1x1024x257_S1x1024x257_0_0_0 : (Rect.unit (s := S1x1024x257) ![0, 0, 0] S1x1024x257.size inb_S1x1024x257_S1x1024x257_0_0_0).PackedRows (EltTy.packing .bf16)
  inb_S1x512x257_S1x512x257_0_0_0 : ∀ a, (![0, 0, 0] : Fin 3 → Nat) a + S1x512x257.size a ≤ S1x512x257.size a
  h_S1x512x257 : 0 < S1x512x257.numel
  shapeCasts_S1x512x257_S512x257 : S1x512x257.ShapeCasts S512x257
  inb_S1x2048x257_S1x2048x257_0_0_0 : ∀ a, (![0, 0, 0] : Fin 3 → Nat) a + S1x2048x257.size a ≤ S1x2048x257.size a
  h_S1x2048x257 : 0 < S1x2048x257.numel
  shapeCasts_S1x2048x257_S2048x257 : S1x2048x257.ShapeCasts S2048x257
  broadcasts_S1x257_S512x257 : S1x257.Broadcasts S512x257
  shapeCasts_S512x257_S1x512x257 : S512x257.ShapeCasts S1x512x257
  dot_S1024x257_S257x257_S1024x257_1_0_0_1_n_n_wf : DotDims.WF S1024x257 S257x257 S1024x257 [1] [0] [0] [1] [] []
  dot_S512x257_S2048x257_S512x2048_1_1_0_0_n_n_wf : DotDims.WF S512x257 S2048x257 S512x2048 [1] [1] [0] [0] [] []
  dot_S512x2048_S2048x257_S512x257_1_0_0_1_n_n_wf : DotDims.WF S512x2048 S2048x257 S512x257 [1] [0] [0] [1] [] []
  dot_S512x257_S257x257_S512x257_1_0_0_1_n_n_wf : DotDims.WF S512x257 S257x257 S512x257 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x257.size a ≤ S8x2048x257.size a
  hwx0_0 : ∀ i : grid0.Coords, EltTy.bits .f32 = 32 ∨ (Rect.block (s := S8x2048x257) S1x1024x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x257.size a ≤ S8x2048x257.size a
  hwx0_1 : ∀ i : grid0.Coords, EltTy.bits .f32 = 32 ∨ (Rect.block (s := S8x2048x257) S1x1024x257.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x257.size a ≤ S8x2048x257.size a
  hwx0_2 : ∀ i : grid0.Coords, EltTy.bits .f32 = 32 ∨ (Rect.block (s := S8x2048x257) S1x1024x257.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S257x257.size a ≤ S257x257.size a
  hwx0_3 : ∀ i : grid0.Coords, EltTy.bits .f32 = 32 ∨ (Rect.block (s := S257x257) S257x257.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S257.size a ≤ S257.size a
  hwx0_4 : ∀ i : grid0.Coords, EltTy.bits .f32 = 32 ∨ (Rect.block (s := S257) S257.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S257x257.size a ≤ S257x257.size a
  hwx0_5 : ∀ i : grid0.Coords, EltTy.bits .f32 = 32 ∨ (Rect.block (s := S257x257) S257x257.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S257.size a ≤ S257.size a
  hwx0_6 : ∀ i : grid0.Coords, EltTy.bits .f32 = 32 ∨ (Rect.block (s := S257) S257.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S257x257.size a ≤ S257x257.size a
  hwx0_7 : ∀ i : grid0.Coords, EltTy.bits .f32 = 32 ∨ (Rect.block (s := S257x257) S257x257.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S257.size a ≤ S257.size a
  hwx0_8 : ∀ i : grid0.Coords, EltTy.bits .f32 = 32 ∨ (Rect.block (s := S257) S257.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x257.size a ≤ S8x2048x257.size a
  hwx0_9 : ∀ i : grid0.Coords, EltTy.bits .bf16 = 32 ∨ (Rect.block (s := S8x2048x257) S1x1024x257.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x257.size a ≤ S8x2048x257.size a
  hwx0_10 : ∀ i : grid0.Coords, EltTy.bits .bf16 = 32 ∨ (Rect.block (s := S8x2048x257) S1x1024x257.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x257.size a ≤ S8x2048x257.size a
  hwx0_11 : ∀ i : grid0.Coords, EltTy.bits .bf16 = 32 ∨ (Rect.block (s := S8x2048x257) S1x1024x257.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x257.size a ≤ S8x2048x257.size a
  hwx1_0 : ∀ i : grid1.Coords, EltTy.bits .bf16 = 32 ∨ (Rect.block (s := S8x2048x257) S1x512x257.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x257.size a ≤ S8x2048x257.size a
  hwx1_1 : ∀ i : grid1.Coords, EltTy.bits .bf16 = 32 ∨ (Rect.block (s := S8x2048x257) S1x2048x257.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x257.size a ≤ S8x2048x257.size a
  hwx1_2 : ∀ i : grid1.Coords, EltTy.bits .bf16 = 32 ∨ (Rect.block (s := S8x2048x257) S1x2048x257.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S257x257.size a ≤ S257x257.size a
  hwx1_3 : ∀ i : grid1.Coords, EltTy.bits .f32 = 32 ∨ (Rect.block (s := S257x257) S257x257.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S257.size a ≤ S257.size a
  hwx1_4 : ∀ i : grid1.Coords, EltTy.bits .f32 = 32 ∨ (Rect.block (s := S257) S257.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x257.size a ≤ S8x2048x257.size a
  hwx1_5 : ∀ i : grid1.Coords, EltTy.bits .f32 = 32 ∨ (Rect.block (s := S8x2048x257) S1x512x257.size (cc1_transform_5 i) (hinb1_5 i)).WholeWords (EltTy.packing .f32)

variable [Facts₀]

def dot_S1024x257_S257x257_S1024x257_1_0_0_1_n_n : DotDims S1024x257 S257x257 S1024x257 where
  lhsContracting := [1]
  rhsContracting := [0]
  lhsNonContracting := [0]
  rhsNonContracting := [1]
  lhsBatch := []
  rhsBatch := []
  wf := dot_S1024x257_S257x257_S1024x257_1_0_0_1_n_n_wf
def dot_S512x257_S2048x257_S512x2048_1_1_0_0_n_n : DotDims S512x257 S2048x257 S512x2048 where
  lhsContracting := [1]
  rhsContracting := [1]
  lhsNonContracting := [0]
  rhsNonContracting := [0]
  lhsBatch := []
  rhsBatch := []
  wf := dot_S512x257_S2048x257_S512x2048_1_1_0_0_n_n_wf
def dot_S512x2048_S2048x257_S512x257_1_0_0_1_n_n : DotDims S512x2048 S2048x257 S512x257 where
  lhsContracting := [1]
  rhsContracting := [0]
  lhsNonContracting := [0]
  rhsNonContracting := [1]
  lhsBatch := []
  rhsBatch := []
  wf := dot_S512x2048_S2048x257_S512x257_1_0_0_1_n_n_wf
def dot_S512x257_S257x257_S512x257_1_0_0_1_n_n : DotDims S512x257 S257x257 S512x257 where
  lhsContracting := [1]
  rhsContracting := [0]
  lhsNonContracting := [0]
  rhsNonContracting := [1]
  lhsBatch := []
  rhsBatch := []
  wf := dot_S512x257_S257x257_S512x257_1_0_0_1_n_n_wf

abbrev win0_0 : Pipeline.Window sig grid0 :=
  Pipeline.Window.ofSpec (Memref.whole main_arg0) S1x1024x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x257.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S257x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S257.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S257x257.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S257.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S257x257.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S257.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S1x1024x257.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S1x1024x257.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S1x1024x257.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4_0) S1x512x257.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x2048x257.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x2048x257.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S257x257.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S257.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512x257.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x257 : Shape := ⟨3, ![8, 2048, 257]⟩
abbrev S257x257 : Shape := ⟨2, ![257, 257]⟩
abbrev S257 : Shape := ⟨1, ![257]⟩
abbrev S1x1x257 : Shape := ⟨3, ![1, 1, 257]⟩
abbrev S8x2048x2048 : Shape := ⟨3, ![8, 2048, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x257, .f32⟩
  | .hbm, ⟨1, _⟩ => ⟨S8x2048x257, .f32⟩
  | .hbm, ⟨2, _⟩ => ⟨S8x2048x257, .f32⟩
  | .hbm, ⟨3, _⟩ => ⟨S257x257, .f32⟩
  | .hbm, ⟨4, _⟩ => ⟨S257, .f32⟩
  | .hbm, ⟨5, _⟩ => ⟨S257x257, .f32⟩
  | .hbm, ⟨6, _⟩ => ⟨S257, .f32⟩
  | .hbm, ⟨7, _⟩ => ⟨S257x257, .f32⟩
  | .hbm, ⟨8, _⟩ => ⟨S257, .f32⟩
  | .hbm, ⟨9, _⟩ => ⟨S257x257, .f32⟩
  | .hbm, ⟨10, _⟩ => ⟨S257, .f32⟩
  | .hbm, ⟨11, _⟩ => ⟨S8x2048x257, .f32⟩
  | .hbm, ⟨12, _⟩ => ⟨S1x1x257, .f32⟩
  | .hbm, ⟨13, _⟩ => ⟨S8x2048x257, .f32⟩
  | .hbm, ⟨14, _⟩ => ⟨S8x2048x257, .f32⟩
  | .hbm, ⟨15, _⟩ => ⟨S8x2048x257, .f32⟩
  | .hbm, ⟨16, _⟩ => ⟨S1x1x257, .f32⟩
  | .hbm, ⟨17, _⟩ => ⟨S8x2048x257, .f32⟩
  | .hbm, ⟨18, _⟩ => ⟨S8x2048x257, .f32⟩
  | .hbm, ⟨19, _⟩ => ⟨S8x2048x257, .f32⟩
  | .hbm, ⟨20, _⟩ => ⟨S1x1x257, .f32⟩
  | .hbm, ⟨21, _⟩ => ⟨S8x2048x257, .f32⟩
  | .hbm, ⟨22, _⟩ => ⟨S8x2048x257, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S8x2048x257, .f32⟩
  | .hbm, ⟨36, _⟩ => ⟨S8x2048x257, .f32⟩
  | .hbm, ⟨37, _⟩ => ⟨S1x1x257, .f32⟩
  | .hbm, ⟨38, _⟩ => ⟨S8x2048x257, .f32⟩
  | .hbm, ⟨39, _⟩ => ⟨S8x2048x257, .f32⟩
  | _, _ => ⟨S8x2048x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S257_S1x1x257_2 : S257.BroadcastsInDim S1x1x257 (![2] : Fin 1 → Fin S1x1x257.rank)
  bcast_S1x1x257_S8x2048x257_0_1_2 : S1x1x257.BroadcastsInDim S8x2048x257 (![0, 1, 2] : Fin 3 → Fin S8x2048x257.rank)
  bcast_S_S8x2048x2048 : S_.BroadcastsInDim S8x2048x2048 (![] : Fin 0 → Fin S8x2048x2048.rank)
  dot_S8x2048x257_S257x257_S8x2048x257_2_1_01_0_n_n_wf : DotDims.WF S8x2048x257 S257x257 S8x2048x257 [2] [1] [0, 1] [0] [] []
  dot_S8x2048x257_S8x2048x257_S8x2048x2048_2_2_1_1_0_0_wf : DotDims.WF S8x2048x257 S8x2048x257 S8x2048x2048 [2] [2] [1] [1] [0] [0]
  dot_S8x2048x2048_S8x2048x257_S8x2048x257_2_1_1_2_0_0_wf : DotDims.WF S8x2048x2048 S8x2048x257 S8x2048x257 [2] [1] [1] [2] [0] [0]

variable [Facts₀]

def dot_S8x2048x257_S257x257_S8x2048x257_2_1_01_0_n_n : DotDims S8x2048x257 S257x257 S8x2048x257 where
  lhsContracting := [2]
  rhsContracting := [1]
  lhsNonContracting := [0, 1]
  rhsNonContracting := [0]
  lhsBatch := []
  rhsBatch := []
  wf := dot_S8x2048x257_S257x257_S8x2048x257_2_1_01_0_n_n_wf
def dot_S8x2048x257_S8x2048x257_S8x2048x2048_2_2_1_1_0_0 : DotDims S8x2048x257 S8x2048x257 S8x2048x2048 where
  lhsContracting := [2]
  rhsContracting := [2]
  lhsNonContracting := [1]
  rhsNonContracting := [1]
  lhsBatch := [0]
  rhsBatch := [0]
  wf := dot_S8x2048x257_S8x2048x257_S8x2048x2048_2_2_1_1_0_0_wf
def dot_S8x2048x2048_S8x2048x257_S8x2048x257_2_1_1_2_0_0 : DotDims S8x2048x2048 S8x2048x257 S8x2048x257 where
  lhsContracting := [2]
  rhsContracting := [1]
  lhsNonContracting := [1]
  rhsNonContracting := [2]
  lhsBatch := [0]
  rhsBatch := [0]
  wf := dot_S8x2048x2048_S8x2048x257_S8x2048x257_2_1_1_2_0_0_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.Payloads.lean ====
/-
  What each store of the two kernel bodies writes, at an entry, as a function of the blocks the body loaded.

  A projection body stores, at row r and feature e of its [1, 1024, 257] block,
      Σ_d x(0, r, d) · w(d, e) + β(e)
  where x is the loaded input block, w the loaded (already transposed) weight and β the bias: the changes of float
  format are the identity over the extended reals, the casts between [1, R, C] and [R, C] only drop or add the unit
  axis, and the matrix product into a zero accumulator is the plain sum.

  The attention body stores, at query row r and feature d of its [1, 512, 257] block,
      Σ_e (Σ_s logistic((Σ_e' q(0,r,e') · k(0,s,e')) · scale) · v(0,s,e)) · w(e, d) + β(d).
-/
import proofs.«109810_j16844861735386_1_alg».proof.Proof.Gen.KernelIdeal.Skeleton
import proofs.«109810_j16844861735386_1_alg».proof.Proof.LibDot
import proofs.«109810_j16844861735386_1_alg».proof.Proof.LibDotT
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The common shape of the three projection payloads: a [1024, 257] product with the weight, plus the bias row,
    recast to the block's shape. -/
theorem proj_core (xb : FVec Ideal S1024x257 .bf16) (w : Vec Ideal S257x257 .f32) (β : Vec Ideal S257 .f32)
    (u : Fin 1) (r : Fin 1024) (e : Fin 257) :
    shapeCast S1x1024x257
      (truncf .bf16
        (addf
          (matmul dot_S1024x257_S257x257_S1024x257_1_0_0_1_n_n none xb
            (truncf .bf16 (shapeCast S257x257 w shapeCasts_S257x257_S257x257) bitsLt_bf16_f32)
            (constant S1024x257 .f32 0x00000000#32))
          (broadcastTo S1024x257 (shapeCast S1x257 β shapeCasts_S257_S1x257) broadcasts_S1x257_S1024x257))
        bitsLt_bf16_f32)
      shapeCasts_S1024x257_S1x1024x257 (ix3 u r e)
    = (∑ d : Fin 257, xb (ix2 r d) * w (ix2 d e)) + β (ix1 e) := by
  rw [shapeCast_ab_1ab_apply, truncf_apply, addf_apply]
  unfold Idealize.ShloMosaic.matmul
  rw [Cert.LibDot.matmul_zero_at _ rfl rfl rfl rfl rfl rfl, broadcastTo_1b_ab_apply, shapeCast_a_1a_apply]
  refine congrArg (· + β (ix1 e)) (Finset.sum_congr rfl fun d _ => ?_)
  rw [truncf_apply, shapeCast_self]

/-- The store into the first output block (the query projection). -/
theorem pay_q (x : Vec Ideal S1x1024x257 .f32) (w : Vec Ideal S257x257 .f32) (β : Vec Ideal S257 .f32)
    (u : Fin 1) (r : Fin 1024) (e : Fin 257) :
    k0_pay2 (F := Ideal) x w β (ix3 u r e) = (∑ d : Fin 257, x (ix3 (0 : Fin 1) r d) * w (ix2 d e)) + β (ix1 e) := by
  unfold k0_pay2
  refine (proj_core _ w β u r e).trans ?_
  refine congrArg (· + β (ix1 e)) (Finset.sum_congr rfl fun d _ => ?_)
  rw [truncf_apply, shapeCast_1ab_ab_apply]

/-- The store into the second output block (the key projection). -/
theorem pay_k (x : Vec Ideal S1x1024x257 .f32) (w : Vec Ideal S257x257 .f32) (β : Vec Ideal S257 .f32)
    (u : Fin 1) (r : Fin 1024) (e : Fin 257) :
    k0_pay3 (F := Ideal) x w β (ix3 u r e) = (∑ d : Fin 257, x (ix3 (0 : Fin 1) r d) * w (ix2 d e)) + β (ix1 e) := by
  unfold k0_pay3
  refine (proj_core _ w β u r e).trans ?_
  refine congrArg (· + β (ix1 e)) (Finset.sum_congr rfl fun d _ => ?_)
  rw [truncf_apply, shapeCast_1ab_ab_apply]

/-- The store into the third output block (the value projection): its input block is recast and narrowed in a
    first part of the body, the product made in the second. -/
theorem pay_v (x : Vec Ideal S1x1024x257 .f32) (w : Vec Ideal S257x257 .f32) (β : Vec Ideal S257 .f32)
    (u : Fin 1) (r : Fin 1024) (e : Fin 257) :
    k0_pay1 (F := Ideal) (k0_pay4 (F := Ideal) x) w β (ix3 u r e)
      = (∑ d : Fin 257, x (ix3 (0 : Fin 1) r d) * w (ix2 d e)) + β (ix1 e) := by
  unfold k0_pay1 k0_pay4
  dsimp only
  refine (proj_core _ w β u r e).trans ?_
  refine congrArg (· + β (ix1 e)) (Finset.sum_congr rfl fun d _ => ?_)
  rw [truncf_apply, shapeCast_1ab_ab_apply]

/-- The attention body's store at query row r and feature d. -/
theorem pay_attn (q : Vec Ideal S1x512x257 .bf16) (k v : Vec Ideal S1x2048x257 .bf16) (w : Vec Ideal S257x257 .f32)
    (β : Vec Ideal S257 .f32) (u : Fin 1) (r : Fin 512) (d : Fin 257) :
    k1_pay1 (F := Ideal) q k v w β (ix3 u r d)
      = (∑ e : Fin 257, (∑ s : Fin 2048,
            Ideal.logistic ((∑ e' : Fin 257, q (ix3 (0 : Fin 1) r e') * k (ix3 (0 : Fin 1) s e')) * Ideal.ofBits .f32 0x3D7F8060#32)
              * v (ix3 (0 : Fin 1) s e)) * w (ix2 e d)) + β (ix1 d) := by
  unfold k1_pay1
  rw [shapeCast_ab_1ab_apply, addf_apply]
  unfold Idealize.ShloMosaic.matmul
  rw [Cert.LibDot.matmul_zero_at _ rfl rfl rfl rfl rfl rfl, broadcastTo_1b_ab_apply, shapeCast_a_1a_apply]
  refine congrArg (· + β (ix1 d)) (Finset.sum_congr rfl fun e _ => ?_)
  rw [truncf_apply, Cert.LibDot.matmul_zero_at _ rfl rfl rfl rfl rfl rfl, truncf_apply, shapeCast_self]
  refine congrArg (· * w (ix2 e d)) (Finset.sum_congr rfl fun s _ => ?_)
  rw [truncf_apply, shapeCast_1ab_ab_apply]
  refine congrArg (· * v (ix3 (0 : Fin 1) s e)) ?_
  show Ideal.logistic (_ * Ideal.ofBits .f32 0x3D7F8060#32) = _
  rw [Cert.LibDotT.matmul_zero_at_T _ rfl rfl rfl rfl rfl rfl]
  refine congrArg (fun z => Ideal.logistic (z * Ideal.ofBits .f32 0x3D7F8060#32)) (Finset.sum_congr rfl fun e' _ => ?_)
  rw [shapeCast_1ab_ab_apply, shapeCast_1ab_ab_apply]

end Cert.KernelIdeal.Pay

end
-- ==== Proof.Spec.lean ====
/-
  The function both programs compute, over the extended reals, index by index.

  Three linear layers: qp = q·Wqᵀ + bq, kp = k·Wkᵀ + bk, vp = v·Wvᵀ + bv, each over arrays [8, 2048, 257] with a
  [257, 257] weight (row e of the weight gives output feature e) and a [257] bias. Then, per batch b, the attention
  without a softmax: the weight of key s for query t is the logistic function of (Σ_e qp(b,t,e)·kp(b,s,e)) times the
  fixed scale; the context is the weighted sum of the value rows, ctx(b,t,e) = Σ_s weight(b,t,s)·vp(b,s,e); and the
  output layer out(b,t,d) = Σ_e ctx(b,t,e)·Wo(d,e) + bo(d).

  Sums are finite sums in the extended reals; nothing here needs the inputs to be finite, because both programs add
  and multiply the same terms in the same arrangement.
-/
import Idealize.ShloMosaic.PureOps.Ideal
import Idealize.ShloMosaic.Lib.ValueIdx

noncomputable section

open scoped BigOperators

namespace Cert.Spec

open Idealize.ShloMosaic Idealize.ShloMosaic.ValueIdx

/-- Arrays [8, 2048, 257], matrices [257, 257], vectors [257]. -/
abbrev Arr : Type := (⟨3, ![8, 2048, 257]⟩ : Shape).Idx → EReal
abbrev Mat : Type := (⟨2, ![257, 257]⟩ : Shape).Idx → EReal
abbrev Vct : Type := (⟨1, ![257]⟩ : Shape).Idx → EReal

/-- A linear layer at an entry: row (b, t) of the input against row e of the weight, plus the bias. -/
def lin (x : Arr) (W : Mat) (β : Vct) (b : Fin 8) (t : Fin 2048) (e : Fin 257) : EReal :=
  (∑ d : Fin 257, x (ix3 b t d) * W (ix2 e d)) + β (ix1 e)

/-- The linear layer as an array. -/
def proj (x : Arr) (W : Mat) (β : Vct) : Arr := fun i => lin x W β (i 0) (i 1) (i 2)

/-- The scale both programs multiply the scores by: the single-precision word nearest 1/√257. -/
def scale : EReal := Ideal.ofBits .f32 0x3D7F8060#32

/-- The weight of key s for query t in batch b. -/
def weight (QP KP : Arr) (b : Fin 8) (t s : Fin 2048) : EReal :=
  Ideal.logistic ((∑ e : Fin 257, QP (ix3 b t e) * KP (ix3 b s e)) * scale)

/-- The context: the value rows summed with those weights. -/
def ctx (QP KP VP : Arr) (b : Fin 8) (t : Fin 2048) (e : Fin 257) : EReal :=
  ∑ s : Fin 2048, weight QP KP b t s * VP (ix3 b s e)

/-- The output layer over the context, at an entry. -/
def outAt (QP KP VP : Arr) (Wo : Mat) (βo : Vct) (b : Fin 8) (t : Fin 2048) (d : Fin 257) : EReal :=
  (∑ e : Fin 257, ctx QP KP VP b t e * Wo (ix2 d e)) + βo (ix1 d)

/-- Attention and output layer as an array. -/
def attn (QP KP VP : Arr) (Wo : Mat) (βo : Vct) : Arr := fun i => outAt QP KP VP Wo βo (i 0) (i 1) (i 2)

/-- The whole function of the eleven arguments. -/
def G (q k v : Arr) (Wq : Mat) (bq : Vct) (Wk : Mat) (bk : Vct) (Wv : Mat) (bv : Vct) (Wo : Mat) (bo : Vct) : Arr :=
  attn (proj q Wq bq) (proj k Wk bk) (proj v Wv bv) Wo bo

/-- The same linear layer over the TRANSPOSED weight wT(d, e) = W(e, d), which is what the kernel is handed. -/
def projT (x : Arr) (WT : Mat) (β : Vct) : Arr :=
  fun i => (∑ d : Fin 257, x (ix3 (i 0) (i 1) d) * WT (ix2 d (i 2))) + β (ix1 (i 2))

/-- Attention and the output layer over the transposed output weight. -/
def attnT (QP KP VP : Arr) (WoT : Mat) (βo : Vct) : Arr :=
  fun i => (∑ e : Fin 257, ctx QP KP VP (i 0) (i 1) e * WoT (ix2 e (i 2))) + βo (ix1 (i 2))

theorem proj_apply (x : Arr) (W : Mat) (β : Vct) (b : Fin 8) (t : Fin 2048) (e : Fin 257) :
    proj x W β (ix3 b t e) = lin x W β b t e := rfl

theorem attn_apply (QP KP VP : Arr) (Wo : Mat) (βo : Vct) (b : Fin 8) (t : Fin 2048) (d : Fin 257) :
    attn QP KP VP Wo βo (ix3 b t d) = outAt QP KP VP Wo βo b t d := rfl

end Cert.Spec

end
-- ==== Proof.Region0Q.lean ====
/-
  The first kernel region, read as values: the query projection.

  The region's grid has 16 points. At a point the projection's input window and its output window both hold block
  [1, 1024, 257] of an [8, 2048, 257] array at the same block index (batch, half of the rows), while the weight and
  the bias are whole. What a point writes back to the output array is therefore the block, at that block index, of the
  linear layer projT (input, transposed weight, bias); and since the 16 blocks tile the array, the output array ends
  holding that layer of the arrays the region found.
-/
import proofs.«109810_j16844861735386_1_alg».proof.Proof.Gen.KernelIdeal.Frame
import proofs.«109810_j16844861735386_1_alg».proof.Proof.Payloads
import proofs.«109810_j16844861735386_1_alg».proof.Proof.Spec
import Idealize.ShloMosaic.Lib.Pipeline.Value

set_option maxRecDepth 16384

noncomputable section

open scoped BigOperators

namespace Cert.KernelIdeal.R0Q

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The arrays this projection reads, at their literal types, as the region finds them: the input, the transposed
    weight, the bias. -/
abbrev xq (c : Dev nD) : Cert.Spec.Arr := V c main_arg0
abbrev wq (c : Dev nD) : Cert.Spec.Mat := V c main_v0
abbrev βq (c : Dev nD) : Cert.Spec.Vct := V c main_arg4

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid, for the query projection: its input window moves with its output window on
    the batch and row axes, both have one block on the feature axis, its weight and bias windows stay at block zero. -/
theorem idx_facts : ∀ t : Fin cfg0.N, win0_0.index t (0 : Fin 3) = win0_9.index t (0 : Fin 3)
    ∧ win0_0.index t (1 : Fin 3) = win0_9.index t (1 : Fin 3)
    ∧ win0_0.index t (2 : Fin 3) = 0 ∧ win0_9.index t (2 : Fin 3) = 0
    ∧ win0_3.index t (0 : Fin 2) = 0 ∧ win0_3.index t (1 : Fin 2) = 0 ∧ win0_4.index t (0 : Fin 1) = 0
    ∧ win0_9.index t (0 : Fin 3) ≤ 7 ∧ win0_9.index t (1 : Fin 3) ≤ 1 :=
  (by decide +kernel : ∀ t : Fin grid0.N, _)

/-- What a point writes back to the query array is the block of the query layer at the point's block index. -/
theorem flushed_eq (c : Dev nD) (t : Fin cfg0.N) :
    (dat0 V c).flushed 9 t = ((cfg0.win 9).blk t).view.read (Elt Ideal)
      (Cert.Spec.projT (xq V c) (wq V c) (βq V c)) := by
  show (cfg0.win 9).cut (grid0.coords t) ((dat0 V c).after 9 t) = _
  rw [after0_9]
  unfold out0_9
  rw [View.canon_unit_zero hz3]
  simp only [View.ld_unit_zero (S := S1x1024x257) hz3, View.ld_unit_zero (S := S257x257) hz2, View.ld_unit_zero (S := S257) hz1]
  obtain ⟨e0, e1, e2, e3, e4, e5, e6, e7, e8⟩ := idx_facts t
  funext j
  obtain ⟨u, r, e, rfl⟩ : ∃ (u : Fin 1) (r : Fin 1024) (e : Fin 257), j = ix3 u r e := ⟨j 0, j 1, j 2, eq_ix3 j⟩
  refine (Cert.KernelIdeal.Pay.pay_q (iblk0 V c 0 t) (iblk0 V c 3 t) (iblk0 V c 4 t) u r e).trans ?_
  have hu : u.val = 0 := by omega
  show (∑ d : Fin 257, xq V c (((cfg0.win 0).blk t).view.emb (ix3 (0 : Fin 1) r d))
          * wq V c (((cfg0.win 3).blk t).view.emb (ix2 d e)))
        + βq V c (((cfg0.win 4).blk t).view.emb (ix1 e))
      = Cert.Spec.projT (xq V c) (wq V c) (βq V c) (((cfg0.win 9).blk t).view.emb (ix3 u r e))
  unfold Cert.Spec.projT
  have hx : ∀ d : Fin 257, ((cfg0.win 0).blk t).view.emb (ix3 (0 : Fin 1) r d)
      = ix3 ((((cfg0.win 9).blk t).view.emb (ix3 u r e)) 0) ((((cfg0.win 9).blk t).view.emb (ix3 u r e)) 1) d := by
    intro d; funext a; apply Fin.ext
    match a with
    | ⟨0, _⟩ => show win0_0.index t (0 : Fin 3) * 1 + 1 * 0 = win0_9.index t (0 : Fin 3) * 1 + 1 * u.val; omega
    | ⟨1, _⟩ => show win0_0.index t (1 : Fin 3) * 1024 + 1 * r.val = win0_9.index t (1 : Fin 3) * 1024 + 1 * r.val; omega
    | ⟨2, _⟩ => show win0_0.index t (2 : Fin 3) * 257 + 1 * d.val = d.val; omega
  have hw : ∀ d : Fin 257, ((cfg0.win 3).blk t).view.emb (ix2 d e)
      = ix2 d ((((cfg0.win 9).blk t).view.emb (ix3 u r e)) 2) := by
    intro d; funext a; apply Fin.ext
    match a with
    | ⟨0, _⟩ => show win0_3.index t (0 : Fin 2) * 257 + 1 * d.val = d.val; omega
    | ⟨1, _⟩ => show win0_3.index t (1 : Fin 2) * 257 + 1 * e.val = win0_9.index t (2 : Fin 3) * 257 + 1 * e.val; omega
  have hβ : ((cfg0.win 4).blk t).view.emb (ix1 e) = ix1 ((((cfg0.win 9).blk t).view.emb (ix3 u r e)) 2) := by
    funext a; apply Fin.ext
    match a with
    | ⟨0, _⟩ => show win0_4.index t (0 : Fin 1) * 257 + 1 * e.val = win0_9.index t (2 : Fin 3) * 257 + 1 * e.val; omega
  rw [hβ]
  refine congrArg (· + _) (Finset.sum_congr rfl fun d _ => ?_)
  rw [hx d, hw d]
  rfl

/-- An index of the query array is in a point's block iff each coordinate is in the block's range on its axis. -/
theorem mem_blk (t : Fin cfg0.N) (i : S8x2048x257.Idx) :
    i ∈ ((cfg0.win 9).blk t).view.set ↔ ∀ a : Fin 3, win0_9.index t a * S1x1024x257.size a ≤ (i a).val
      ∧ (i a).val < win0_9.index t a * S1x1024x257.size a + S1x1024x257.size a := by
  show i ∈ ((View.whole main_v4_0).slice (win0_9.rect t)).set ↔ _
  rw [View.set_slice_whole, Rect.mem_set_unit]
  exact Iff.rfl

/-- Every block index (batch, half of the rows) is some point's. -/
theorem idx_onto : ∀ (q0 : Fin 8) (q1 : Fin 2), ∃ t : Fin cfg0.N, win0_9.index t = ![q0.val, q1.val, 0] :=
  (by decide +kernel : ∀ (q0 : Fin 8) (q1 : Fin 2), ∃ t : Fin grid0.N, win0_9.index t = ![q0.val, q1.val, 0])

/-- The sixteen blocks tile the array: index (b, t, e) lies in the block of batch b and row half t / 1024. -/
theorem cover (i : S8x2048x257.Idx) :
    ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 257 := (i 2).isLt
  obtain ⟨t, ht⟩ := idx_onto ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 257 ≤ (i 2).val ∧ (i 2).val < win0_9.index t (2 : Fin 3) * 257 + 257; omega

/-- The query array after the region: the query layer of the arrays the region found. -/
theorem final (c : Dev nD) :
    (dat0 V c).arrAt 9 cfg0.N = Cert.Spec.projT (xq V c) (wq V c) (βq V c) :=
  (dat0 V c).arrAt_eq_of_cover 9 _ (fun t _ => flushed_eq V c t) cover

end Cert.KernelIdeal.R0Q

end
-- ==== Proof.Region0K.lean ====
/-
  The first kernel region, read as values: the key projection.

  The region's grid has 16 points. At a point the projection's input window and its output window both hold block
  [1, 1024, 257] of an [8, 2048, 257] array at the same block index (batch, half of the rows), while the weight and
  the bias are whole. What a point writes back to the output array is therefore the block, at that block index, of the
  linear layer projT (input, transposed weight, bias); and since the 16 blocks tile the array, the output array ends
  holding that layer of the arrays the region found.
-/
import proofs.«109810_j16844861735386_1_alg».proof.Proof.Gen.KernelIdeal.Frame
import proofs.«109810_j16844861735386_1_alg».proof.Proof.Payloads
import proofs.«109810_j16844861735386_1_alg».proof.Proof.Spec
import Idealize.ShloMosaic.Lib.Pipeline.Value

set_option maxRecDepth 16384

noncomputable section

open scoped BigOperators

namespace Cert.KernelIdeal.R0K

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The arrays this projection reads, at their literal types, as the region finds them: the input, the transposed
    weight, the bias. -/
abbrev xk (c : Dev nD) : Cert.Spec.Arr := V c main_arg1
abbrev wk (c : Dev nD) : Cert.Spec.Mat := V c main_v1
abbrev βk (c : Dev nD) : Cert.Spec.Vct := V c main_arg6

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid, for the key projection: its input window moves with its output window on
    the batch and row axes, both have one block on the feature axis, its weight and bias windows stay at block zero. -/
theorem idx_facts : ∀ t : Fin cfg0.N, win0_1.index t (0 : Fin 3) = win0_10.index t (0 : Fin 3)
    ∧ win0_1.index t (1 : Fin 3) = win0_10.index t (1 : Fin 3)
    ∧ win0_1.index t (2 : Fin 3) = 0 ∧ win0_10.index t (2 : Fin 3) = 0
    ∧ win0_5.index t (0 : Fin 2) = 0 ∧ win0_5.index t (1 : Fin 2) = 0 ∧ win0_6.index t (0 : Fin 1) = 0
    ∧ win0_10.index t (0 : Fin 3) ≤ 7 ∧ win0_10.index t (1 : Fin 3) ≤ 1 :=
  (by decide +kernel : ∀ t : Fin grid0.N, _)

/-- What a point writes back to the key array is the block of the key layer at the point's block index. -/
theorem flushed_eq (c : Dev nD) (t : Fin cfg0.N) :
    (dat0 V c).flushed 10 t = ((cfg0.win 10).blk t).view.read (Elt Ideal)
      (Cert.Spec.projT (xk V c) (wk V c) (βk V c)) := by
  show (cfg0.win 10).cut (grid0.coords t) ((dat0 V c).after 10 t) = _
  rw [after0_10]
  unfold out0_10
  rw [View.canon_unit_zero hz3]
  simp only [View.ld_unit_zero (S := S1x1024x257) hz3, View.ld_unit_zero (S := S257x257) hz2, View.ld_unit_zero (S := S257) hz1]
  obtain ⟨e0, e1, e2, e3, e4, e5, e6, e7, e8⟩ := idx_facts t
  funext j
  obtain ⟨u, r, e, rfl⟩ : ∃ (u : Fin 1) (r : Fin 1024) (e : Fin 257), j = ix3 u r e := ⟨j 0, j 1, j 2, eq_ix3 j⟩
  refine (Cert.KernelIdeal.Pay.pay_k (iblk0 V c 1 t) (iblk0 V c 5 t) (iblk0 V c 6 t) u r e).trans ?_
  have hu : u.val = 0 := by omega
  show (∑ d : Fin 257, xk V c (((cfg0.win 1).blk t).view.emb (ix3 (0 : Fin 1) r d))
          * wk V c (((cfg0.win 5).blk t).view.emb (ix2 d e)))
        + βk V c (((cfg0.win 6).blk t).view.emb (ix1 e))
      = Cert.Spec.projT (xk V c) (wk V c) (βk V c) (((cfg0.win 10).blk t).view.emb (ix3 u r e))
  unfold Cert.Spec.projT
  have hx : ∀ d : Fin 257, ((cfg0.win 1).blk t).view.emb (ix3 (0 : Fin 1) r d)
      = ix3 ((((cfg0.win 10).blk t).view.emb (ix3 u r e)) 0) ((((cfg0.win 10).blk t).view.emb (ix3 u r e)) 1) d := by
    intro d; funext a; apply Fin.ext
    match a with
    | ⟨0, _⟩ => show win0_1.index t (0 : Fin 3) * 1 + 1 * 0 = win0_10.index t (0 : Fin 3) * 1 + 1 * u.val; omega
    | ⟨1, _⟩ => show win0_1.index t (1 : Fin 3) * 1024 + 1 * r.val = win0_10.index t (1 : Fin 3) * 1024 + 1 * r.val; omega
    | ⟨2, _⟩ => show win0_1.index t (2 : Fin 3) * 257 + 1 * d.val = d.val; omega
  have hw : ∀ d : Fin 257, ((cfg0.win 5).blk t).view.emb (ix2 d e)
      = ix2 d ((((cfg0.win 10).blk t).view.emb (ix3 u r e)) 2) := by
    intro d; funext a; apply Fin.ext
    match a with
    | ⟨0, _⟩ => show win0_5.index t (0 : Fin 2) * 257 + 1 * d.val = d.val; omega
    | ⟨1, _⟩ => show win0_5.index t (1 : Fin 2) * 257 + 1 * e.val = win0_10.index t (2 : Fin 3) * 257 + 1 * e.val; omega
  have hβ : ((cfg0.win 6).blk t).view.emb (ix1 e) = ix1 ((((cfg0.win 10).blk t).view.emb (ix3 u r e)) 2) := by
    funext a; apply Fin.ext
    match a with
    | ⟨0, _⟩ => show win0_6.index t (0 : Fin 1) * 257 + 1 * e.val = win0_10.index t (2 : Fin 3) * 257 + 1 * e.val; omega
  rw [hβ]
  refine congrArg (· + _) (Finset.sum_congr rfl fun d _ => ?_)
  rw [hx d, hw d]
  rfl

/-- An index of the key array is in a point's block iff each coordinate is in the block's range on its axis. -/
theorem mem_blk (t : Fin cfg0.N) (i : S8x2048x257.Idx) :
    i ∈ ((cfg0.win 10).blk t).view.set ↔ ∀ a : Fin 3, win0_10.index t a * S1x1024x257.size a ≤ (i a).val
      ∧ (i a).val < win0_10.index t a * S1x1024x257.size a + S1x1024x257.size a := by
  show i ∈ ((View.whole main_v4_1).slice (win0_10.rect t)).set ↔ _
  rw [View.set_slice_whole, Rect.mem_set_unit]
  exact Iff.rfl

/-- Every block index (batch, half of the rows) is some point's. -/
theorem idx_onto : ∀ (q0 : Fin 8) (q1 : Fin 2), ∃ t : Fin cfg0.N, win0_10.index t = ![q0.val, q1.val, 0] :=
  (by decide +kernel : ∀ (q0 : Fin 8) (q1 : Fin 2), ∃ t : Fin grid0.N, win0_10.index t = ![q0.val, q1.val, 0])

/-- The sixteen blocks tile the array: index (b, t, e) lies in the block of batch b and row half t / 1024. -/
theorem cover (i : S8x2048x257.Idx) :
    ∃ t : Fin cfg0.N, (cfg0.win 10).flush t = true ∧ i ∈ ((cfg0.win 10).blk t).view.set := by
  have hi0 : (i 0).val < 8 := (i 0).isLt
  have hi1 : (i 1).val < 2048 := (i 1).isLt
  have hi2 : (i 2).val < 257 := (i 2).isLt
  obtain ⟨t, ht⟩ := idx_onto ⟨(i 0).val, hi0⟩ ⟨(i 1).val / 1024, by omega⟩
  have q0 : win0_10.index t (0 : Fin 3) = (i 0).val := congrFun ht 0
  have q1 : win0_10.index t (1 : Fin 3) = (i 1).val / 1024 := congrFun ht 1
  have q2 : win0_10.index t (2 : Fin 3) = 0 := congrFun ht 2
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1024 ≤ (i 1).val ∧ (i 1).val < win0_10.index t (1 : Fin 3) * 1024 + 1024; omega
  | ⟨2, _⟩ => show win0_10.index t (2 : Fin 3) * 257 ≤ (i 2).val ∧ (i 2).val < win0_10.index t (2 : Fin 3) * 257 + 257; omega

/-- The key array after the region: the key layer of the arrays the region found. -/
theorem final (c : Dev nD) :
    (dat0 V c).arrAt 10 cfg0.N = Cert.Spec.projT (xk V c) (wk V c) (βk V c) :=
  (dat0 V c).arrAt_eq_of_cover 10 _ (fun t _ => flushed_eq V c t) cover

end Cert.KernelIdeal.R0K

end
-- ==== Proof.Region0V.lean ====
/-
  The first kernel region, read as values: the value projection.

  The region's grid has 16 points. At a point the projection's input window and its output window both hold block
  [1, 1024, 257] of an [8, 2048, 257] array at the same block index (batch, half of the rows), while the weight and
  the bias are whole. What a point writes back to the output array is therefore the block, at that block index, of the
  linear layer projT (input, transposed weight, bias); and since the 16 blocks tile the array, the output array ends
  holding that layer of the arrays the region found.
-/
import proofs.«109810_j16844861735386_1_alg».proof.Proof.Gen.KernelIdeal.Frame
import proofs.«109810_j16844861735386_1_alg».proof.Proof.Payloads
import proofs.«109810_j16844861735386_1_alg».proof.Proof.Spec
import Idealize.ShloMosaic.Lib.Pipeline.Value

set_option maxRecDepth 16384

noncomputable section

open scoped BigOperators

namespace Cert.KernelIdeal.R0V

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The arrays this projection reads, at their literal types, as the region finds them: the input, the transposed
    weight, the bias. -/
abbrev xv (c : Dev nD) : Cert.Spec.Arr := V c main_arg2
abbrev wv (c : Dev nD) : Cert.Spec.Mat := V c main_v2
abbrev βv (c : Dev nD) : Cert.Spec.Vct := V c main_arg8

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid, for the value projection: its input window moves with its output window on
    the batch and row axes, both have one block on the feature axis, its weight and bias windows stay at block zero. -/
theorem idx_facts : ∀ t : Fin cfg0.N, win0_2.index t (0 : Fin 3) = win0_11.index t (0 : Fin 3)
    ∧ win0_2.index t (1 : Fin 3) = win0_11.index t (1 : Fin 3)
    ∧ win0_2.index t (2 : Fin 3) = 0 ∧ win0_11.index t (2 : Fin 3) = 0
    ∧ win0_7.index t (0 : Fin 2) = 0 ∧ win0_7.index t (1 : Fin 2) = 0 ∧ win0_8.index t (0 : Fin 1) = 0
    ∧ win0_11.index t (0 : Fin 3) ≤ 7 ∧ win0_11.index t (1 : Fin 3) ≤ 1 :=
  (by decide +kernel : ∀ t : Fin grid0.N, _)

/-- What a point writes back to the value array is the block of the value layer at the point's block index. -/
theorem flushed_eq (c : Dev nD) (t : Fin cfg0.N) :
    (dat0 V c).flushed 11 t = ((cfg0.win 11).blk t).view.read (Elt Ideal)
      (Cert.Spec.projT (xv V c) (wv V c) (βv V c)) := by
  show (cfg0.win 11).cut (grid0.coords t) ((dat0 V c).after 11 t) = _
  rw [after0_11]
  unfold out0_11
  rw [View.canon_unit_zero hz3]
  simp only [View.ld_unit_zero (S := S1x1024x257) hz3, View.ld_unit_zero (S := S257x257) hz2, View.ld_unit_zero (S := S257) hz1]
  obtain ⟨e0, e1, e2, e3, e4, e5, e6, e7, e8⟩ := idx_facts t
  funext j
  obtain ⟨u, r, e, rfl⟩ : ∃ (u : Fin 1) (r : Fin 1024) (e : Fin 257), j = ix3 u r e := ⟨j 0, j 1, j 2, eq_ix3 j⟩
  refine (Cert.KernelIdeal.Pay.pay_v (iblk0 V c 2 t) (iblk0 V c 7 t) (iblk0 V c 8 t) u r e).trans ?_
  have hu : u.val = 0 := by omega
  show (∑ d : Fin 257, xv V c (((cfg0.win 2).blk t).view.emb (ix3 (0 : Fin 1) r d))
          * wv V c (((cfg0.win 7).blk t).view.emb (ix2 d e)))
        + βv V c (((cfg0.win 8).blk t).view.emb (ix1 e))
      = Cert.Spec.projT (xv V c) (wv V c) (βv V c) (((cfg0.win 11).blk t).view.emb (ix3 u r e))
  unfold Cert.Spec.projT
  have hx : ∀ d : Fin 257, ((cfg0.win 2).blk t).view.emb (ix3 (0 : Fin 1) r d)
      = ix3 ((((cfg0.win 11).blk t).view.emb (ix3 u r e)) 0) ((((cfg0.win 11).blk t).view.emb (ix3 u r e)) 1) d := by
    intro d; funext a; apply Fin.ext
    match a with
    | ⟨0, _⟩ => show win0_2.index t (0 : Fin 3) * 1 + 1 * 0 = win0_11.index t (0 : Fin 3) * 1 + 1 * u.val; omega
    | ⟨1, _⟩ => show win0_2.index t (1 : Fin 3) * 1024 + 1 * r.val = win0_11.index t (1 : Fin 3) * 1024 + 1 * r.val; omega
    | ⟨2, _⟩ => show win0_2.index t (2 : Fin 3) * 257 + 1 * d.val = d.val; omega
  have hw : ∀ d : Fin 257, ((cfg0.win 7).blk t).view.emb (ix2 d e)
      = ix2 d ((((cfg0.win 11).blk t).view.emb (ix3 u r e)) 2) := by
    intro d; funext a; apply Fin.ext
    match a with
    | ⟨0, _⟩ => show win0_7.index t (0 : Fin 2) * 257 + 1 * d.val = d.val; omega
    | ⟨1, _⟩ => show win0_7.index t (1 : Fin 2) * 257 + 1 * e.val = win0_11.index t (2 : Fin 3) * 257 + 1 * e.val; omega
  have hβ : ((cfg0.win 8).blk t).view.emb (ix1 e) = ix1 ((((cfg0.win 11).blk t).view.emb (ix3 u r e)) 2) := by
    funext a; apply Fin.ext
    match a with
    | ⟨0, _⟩ => show win0_8.index t (0 : Fin 1) * 257 + 1 * e.val = win0_11.index t (2 : Fin 3) * 257 + 1 * e.val; omega
  rw [hβ]
  refine congrArg (· + _) (Finset.sum_congr rfl fun d _ => ?_)
  rw [hx d, hw d]
  rfl

/-- An index of the value array is in a point's block iff each coordinate is in the block's range on its axis. -/
theorem mem_blk (t : Fin cfg0.N) (i : S8x2048x257.Idx) :
    i ∈ ((cfg0.win 11).blk t).view.set ↔ ∀ a : Fin 3, win0_11.index t a * S1x1024x257.size a ≤ (i a).val
      ∧ (i a).val < win0_11.index t a * S1x1024x257.size a + S1x1024x257.size a := by
  show i ∈ ((View.whole main_v4_2).slice (win0_11.rect t)).set ↔ _
  rw [View.set_slice_whole, Rect.mem_set_unit]
  exact Iff.rfl

/-- Every block index (batch, half of the rows) is some point's. -/
theorem idx_onto : ∀ (q0 : Fin 8) (q1 : Fin 2), ∃ t : Fin cfg0.N, win0_11.index t = ![q0.val, q1.val, 0] :=
  (by decide +kernel : ∀ (q0 : Fin 8) (q1 : Fin 2), ∃ t : Fin grid0.N, win0_11.index t = ![q0.val, q1.val, 0])

/-- The sixteen blocks tile the array: index (b, t, e) lies in the block of batch b and row half t / 1024. -/
theorem cover (i : S8x2048x257.Idx) :
    ∃ t : Fin cfg0.N, (cfg0.win 11).flush t = true ∧ i ∈ ((cfg0.win 11).blk t).view.set := by
  have hi0 : (i 0).val < 8 := (i 0).isLt
  have hi1 : (i 1).val < 2048 := (i 1).isLt
  have hi2 : (i 2).val < 257 := (i 2).isLt
  obtain ⟨t, ht⟩ := idx_onto ⟨(i 0).val, hi0⟩ ⟨(i 1).val / 1024, by omega⟩
  have q0 : win0_11.index t (0 : Fin 3) = (i 0).val := congrFun ht 0
  have q1 : win0_11.index t (1 : Fin 3) = (i 1).val / 1024 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 1024 ≤ (i 1).val ∧ (i 1).val < win0_11.index t (1 : Fin 3) * 1024 + 1024; omega
  | ⟨2, _⟩ => show win0_11.index t (2 : Fin 3) * 257 ≤ (i 2).val ∧ (i 2).val < win0_11.index t (2 : Fin 3) * 257 + 257; omega

/-- The value array after the region: the value layer of the arrays the region found. -/
theorem final (c : Dev nD) :
    (dat0 V c).arrAt 11 cfg0.N = Cert.Spec.projT (xv V c) (wv V c) (βv V c) :=
  (dat0 V c).arrAt_eq_of_cover 11 _ (fun t _ => flushed_eq V c t) cover

end Cert.KernelIdeal.R0V

end
-- ==== Proof.Region1.lean ====
/-
  The second kernel region (attention and the output layer), read as values.

  The region's grid has 32 points: a batch and a quarter of the query rows. At a point the query window and the
  output window hold block [1, 512, 257] at the same block index, the key and value windows hold the batch's whole
  [1, 2048, 257] slab, and the output weight and bias are whole. What a point writes back is therefore the block of
  attnT (queries, keys, values, transposed output weight, bias) at its block index: every sum in it runs over whole
  axes of the batch's slabs. The 32 blocks tile the output array, which ends holding attnT of the arrays the region
  found.
-/
import proofs.«109810_j16844861735386_1_alg».proof.Proof.Gen.KernelIdeal.Frame
import proofs.«109810_j16844861735386_1_alg».proof.Proof.Payloads
import proofs.«109810_j16844861735386_1_alg».proof.Proof.Spec
import Idealize.ShloMosaic.Lib.Pipeline.Value

set_option maxRecDepth 16384

noncomputable section

open scoped BigOperators

namespace Cert.KernelIdeal.R1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The arrays the region reads, at their literal types, as the region finds them: the three projected arrays, the
    transposed output weight, the output bias. -/
abbrev qp (c : Dev nD) : Cert.Spec.Arr := V c main_v4_0
abbrev kp (c : Dev nD) : Cert.Spec.Arr := V c main_v4_1
abbrev vp (c : Dev nD) : Cert.Spec.Arr := V c main_v4_2
abbrev wo (c : Dev nD) : Cert.Spec.Mat := V c main_v3
abbrev βo (c : Dev nD) : Cert.Spec.Vct := V c main_arg10

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the query window moves with the output window on the batch and row axes;
    the key and value windows follow the batch only; every window has one block on the feature axis; the weight and
    bias windows stay at block zero. -/
theorem idx_facts : ∀ t : Fin cfg1.N, win1_0.index t (0 : Fin 3) = win1_5.index t (0 : Fin 3)
    ∧ win1_0.index t (1 : Fin 3) = win1_5.index t (1 : Fin 3)
    ∧ win1_0.index t (2 : Fin 3) = 0 ∧ win1_5.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0 ∧ win1_4.index t (0 : Fin 1) = 0
    ∧ win1_5.index t (0 : Fin 3) ≤ 7 ∧ win1_5.index t (1 : Fin 3) ≤ 3 :=
  (by decide +kernel : ∀ t : Fin grid1.N, _)

/-- What a point writes back is the block of attnT at the point's block index. -/
theorem flushed_eq (c : Dev nD) (t : Fin cfg1.N) :
    (dat1 V c).flushed 5 t = ((cfg1.win 5).blk t).view.read (Elt Ideal)
      (Cert.Spec.attnT (qp V c) (kp V c) (vp V c) (wo V c) (βo V c)) := by
  show (cfg1.win 5).cut (grid1.coords t) ((dat1 V c).after 5 t) = _
  rw [after1_5]
  unfold out1_5
  rw [View.canon_unit_zero hz3]
  simp only [View.ld_unit_zero (S := S1x512x257) hz3, View.ld_unit_zero (S := S1x2048x257) hz3,
    View.ld_unit_zero (S := S257x257) hz2, View.ld_unit_zero (S := S257) hz1]
  obtain ⟨e0, e1, e2, e3, e4, e5, e6, e7, e8, e9, e10, e11, e12, e13, e14⟩ := idx_facts t
  funext j
  obtain ⟨u, r, d, rfl⟩ : ∃ (u : Fin 1) (r : Fin 512) (d : Fin 257), j = ix3 u r d := ⟨j 0, j 1, j 2, eq_ix3 j⟩
  refine (Cert.KernelIdeal.Pay.pay_attn (iblk1 V c 0 t) (iblk1 V c 1 t) (iblk1 V c 2 t) (iblk1 V c 3 t) (iblk1 V c 4 t) u r d).trans ?_
  have hu : u.val = 0 := by omega
  show (∑ e : Fin 257, (∑ s : Fin 2048,
          Ideal.logistic ((∑ e' : Fin 257, qp V c (((cfg1.win 0).blk t).view.emb (ix3 (0 : Fin 1) r e')) * kp V c (((cfg1.win 1).blk t).view.emb (ix3 (0 : Fin 1) s e')))
              * Ideal.ofBits .f32 0x3D7F8060#32)
            * vp V c (((cfg1.win 2).blk t).view.emb (ix3 (0 : Fin 1) s e))) * wo V c (((cfg1.win 3).blk t).view.emb (ix2 e d)))
        + βo V c (((cfg1.win 4).blk t).view.emb (ix1 d))
      = Cert.Spec.attnT (qp V c) (kp V c) (vp V c) (wo V c) (βo V c) (((cfg1.win 5).blk t).view.emb (ix3 u r d))
  unfold Cert.Spec.attnT Cert.Spec.ctx Cert.Spec.weight Cert.Spec.scale
  have hq : ∀ e' : Fin 257, ((cfg1.win 0).blk t).view.emb (ix3 (0 : Fin 1) r e') = ix3 ((((cfg1.win 5).blk t).view.emb (ix3 u r d)) 0) ((((cfg1.win 5).blk t).view.emb (ix3 u r d)) 1) e' := by
    intro e'; funext a; apply Fin.ext
    match a with
    | ⟨0, _⟩ => show win1_0.index t (0 : Fin 3) * 1 + 1 * 0 = win1_5.index t (0 : Fin 3) * 1 + 1 * u.val; omega
    | ⟨1, _⟩ => show win1_0.index t (1 : Fin 3) * 512 + 1 * r.val = win1_5.index t (1 : Fin 3) * 512 + 1 * r.val; omega
    | ⟨2, _⟩ => show win1_0.index t (2 : Fin 3) * 257 + 1 * e'.val = e'.val; omega
  have hk : ∀ (s : Fin 2048) (e' : Fin 257), ((cfg1.win 1).blk t).view.emb (ix3 (0 : Fin 1) s e') = ix3 ((((cfg1.win 5).blk t).view.emb (ix3 u r d)) 0) s e' := by
    intro s e'; funext a; apply Fin.ext
    match a with
    | ⟨0, _⟩ => show win1_1.index t (0 : Fin 3) * 1 + 1 * 0 = win1_5.index t (0 : Fin 3) * 1 + 1 * u.val; omega
    | ⟨1, _⟩ => show win1_1.index t (1 : Fin 3) * 2048 + 1 * s.val = s.val; omega
    | ⟨2, _⟩ => show win1_1.index t (2 : Fin 3) * 257 + 1 * e'.val = e'.val; omega
  have hv : ∀ (s : Fin 2048) (e : Fin 257), ((cfg1.win 2).blk t).view.emb (ix3 (0 : Fin 1) s e) = ix3 ((((cfg1.win 5).blk t).view.emb (ix3 u r d)) 0) s e := by
    intro s e; funext a; apply Fin.ext
    match a with
    | ⟨0, _⟩ => show win1_2.index t (0 : Fin 3) * 1 + 1 * 0 = win1_5.index t (0 : Fin 3) * 1 + 1 * u.val; omega
    | ⟨1, _⟩ => show win1_2.index t (1 : Fin 3) * 2048 + 1 * s.val = s.val; omega
    | ⟨2, _⟩ => show win1_2.index t (2 : Fin 3) * 257 + 1 * e.val = e.val; omega
  have hw : ∀ e : Fin 257, ((cfg1.win 3).blk t).view.emb (ix2 e d) = ix2 e ((((cfg1.win 5).blk t).view.emb (ix3 u r d)) 2) := by
    intro e; funext a; apply Fin.ext
    match a with
    | ⟨0, _⟩ => show win1_3.index t (0 : Fin 2) * 257 + 1 * e.val = e.val; omega
    | ⟨1, _⟩ => show win1_3.index t (1 : Fin 2) * 257 + 1 * d.val = win1_5.index t (2 : Fin 3) * 257 + 1 * d.val; omega
  have hβ : ((cfg1.win 4).blk t).view.emb (ix1 d) = ix1 ((((cfg1.win 5).blk t).view.emb (ix3 u r d)) 2) := by
    funext a; apply Fin.ext
    match a with
    | ⟨0, _⟩ => show win1_4.index t (0 : Fin 1) * 257 + 1 * d.val = win1_5.index t (2 : Fin 3) * 257 + 1 * d.val; omega
  refine congrArg₂ (· + ·) (Finset.sum_congr rfl fun e _ => congrArg₂ (· * ·) (Finset.sum_congr rfl fun s _ =>
    congrArg₂ (· * ·) (congrArg (fun z => Ideal.logistic (z * Ideal.ofBits .f32 0x3D7F8060#32))
      (Finset.sum_congr rfl fun e' _ => congrArg₂ (· * ·) (congrArg (qp V c) (hq e')) (congrArg (kp V c) (hk s e'))))
      (congrArg (vp V c) (hv s e))) (congrArg (wo V c) (hw e))) (congrArg (βo V c) hβ)

/-- An index of the output array is in a point's block iff each coordinate is in the block's range on its axis. -/
theorem mem_blk (t : Fin cfg1.N) (i : S8x2048x257.Idx) :
    i ∈ ((cfg1.win 5).blk t).view.set ↔ ∀ a : Fin 3, win1_5.index t a * S1x512x257.size a ≤ (i a).val
      ∧ (i a).val < win1_5.index t a * S1x512x257.size a + S1x512x257.size a := by
  show i ∈ ((View.whole main_v5).slice (win1_5.rect t)).set ↔ _
  rw [View.set_slice_whole, Rect.mem_set_unit]
  exact Iff.rfl

/-- Every block index (batch, quarter of the rows) is some point's. -/
theorem idx_onto : ∀ (q0 : Fin 8) (q1 : Fin 4), ∃ t : Fin cfg1.N, win1_5.index t = ![q0.val, q1.val, 0] :=
  (by decide +kernel : ∀ (q0 : Fin 8) (q1 : Fin 4), ∃ t : Fin grid1.N, win1_5.index t = ![q0.val, q1.val, 0])

/-- The 32 blocks tile the array: index (b, t, d) lies in the block of batch b and row quarter t / 512. -/
theorem cover (i : S8x2048x257.Idx) :
    ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 257 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 257 ≤ (i 2).val ∧ (i 2).val < win1_5.index t (2 : Fin 3) * 257 + 257; omega

/-- The output array after the region: attnT of the arrays the region found. -/
theorem final (c : Dev nD) :
    (dat1 V c).arrAt 5 cfg1.N = Cert.Spec.attnT (qp V c) (kp V c) (vp V c) (wo V c) (βo V c) :=
  (dat1 V c).arrAt_eq_of_cover 5 _ (fun t _ => flushed_eq V c t) cover

end Cert.KernelIdeal.R1

end
-- ==== Proof.Transposed.lean ====
/-
  The kernel is handed each weight matrix transposed (the host transposes it before the first region). A linear layer
  over the transposed weight, read with the two coordinates exchanged, is the layer over the weight itself.
-/
import proofs.«109810_j16844861735386_1_alg».proof.Proof.Spec
import Idealize.ShloMosaic.Lib.ValueLayout

noncomputable section

open scoped BigOperators

namespace Cert.Spec

open Idealize.ShloMosaic Idealize.ShloMosaic.ValueIdx

/-- projT over the transposed weight is proj over the weight. -/
theorem projT_transpose (x : Arr) (W : Mat) (β : Vct)
    (h : (⟨2, ![257, 257]⟩ : Shape).Transposes [1, 0] ⟨2, ![257, 257]⟩) :
    projT x (transpose ⟨2, ![257, 257]⟩ [1, 0] W h) β = proj x W β := by
  funext i
  show (∑ d : Fin 257, x (ix3 (i 0) (i 1) d) * transpose ⟨2, ![257, 257]⟩ [1, 0] W h (ix2 d (i 2))) + β (ix1 (i 2))
    = (∑ d : Fin 257, x (ix3 (i 0) (i 1) d) * W (ix2 (i 2) d)) + β (ix1 (i 2))
  refine congrArg (· + β (ix1 (i 2))) (Finset.sum_congr rfl fun d _ => congrArg (x (ix3 (i 0) (i 1) d) * ·) ?_)
  exact transpose_ix2_apply W h d (i 2)

/-- attnT over the transposed output weight is attn over the weight. -/
theorem attnT_transpose (QP KP VP : Arr) (Wo : Mat) (βo : Vct)
    (h : (⟨2, ![257, 257]⟩ : Shape).Transposes [1, 0] ⟨2, ![257, 257]⟩) :
    attnT QP KP VP (transpose ⟨2, ![257, 257]⟩ [1, 0] Wo h) βo = attn QP KP VP Wo βo := by
  funext i
  show (∑ e : Fin 257, ctx QP KP VP (i 0) (i 1) e * transpose ⟨2, ![257, 257]⟩ [1, 0] Wo h (ix2 e (i 2))) + βo (ix1 (i 2))
    = (∑ e : Fin 257, ctx QP KP VP (i 0) (i 1) e * Wo (ix2 (i 2) e)) + βo (ix1 (i 2))
  refine congrArg (· + βo (ix1 (i 2))) (Finset.sum_congr rfl fun e _ => congrArg (ctx QP KP VP (i 0) (i 1) e * ·) ?_)
  exact transpose_ix2_apply Wo h e (i 2)

end Cert.Spec

end
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.KernelValue.lean ====
/-
  The idealized kernel program's result is the function G of its eleven arguments.

  Read backwards from the result array: the second region leaves it at attnT of the three projected arrays, the
  transposed output weight and the output bias, as that region finds them; the three projected arrays are what the
  first region left, each projT of an input, a transposed weight and a bias as the first region finds them; the four
  transposed weights are what the host's four transposes wrote before the first region, and no operation before a
  region writes an argument. A layer over a transposed weight is the layer over the weight, so the result is
  attn (proj q Wq bq) (proj k Wk bk) (proj v Wv bv) Wo bo.
-/
import proofs.«109810_j16844861735386_1_alg».proof.Proof.KernelRun
import proofs.«109810_j16844861735386_1_alg».proof.Proof.Region0Q
import proofs.«109810_j16844861735386_1_alg».proof.Proof.Region0K
import proofs.«109810_j16844861735386_1_alg».proof.Proof.Region0V
import proofs.«109810_j16844861735386_1_alg».proof.Proof.Region1
import proofs.«109810_j16844861735386_1_alg».proof.Proof.Transposed
import proofs.«109810_j16844861735386_1_alg».proof.Proof.LibKeepAll
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.LibKeepAll

variable (m : (ℓ : Loc nD τ sig) → Buf (Elt Ideal) ℓ) (ρ : Dev nD → PrngReg)

/-! ## What the first region finds: the arguments as launched, the weights transposed -/

theorem V1_main_arg0 (c : Dev nD) : (V1 m ρ c main_arg0 : Buf (Elt Ideal) ((c : Thread nD τ).loc main_arg0)) = m ((c : Thread nD τ).loc main_arg0) :=
  (show StableHlo.after hostOps0 (W0 m ρ c) (Proc.devRef .tc main_arg0) = W0 m ρ c (Proc.devRef .tc main_arg0) by kept_all hostOps0).trans rfl

theorem V1_main_arg1 (c : Dev nD) : (V1 m ρ c main_arg1 : Buf (Elt Ideal) ((c : Thread nD τ).loc main_arg1)) = m ((c : Thread nD τ).loc main_arg1) :=
  (show StableHlo.after hostOps0 (W0 m ρ c) (Proc.devRef .tc main_arg1) = W0 m ρ c (Proc.devRef .tc main_arg1) by kept_all hostOps0).trans rfl

theorem V1_main_arg2 (c : Dev nD) : (V1 m ρ c main_arg2 : Buf (Elt Ideal) ((c : Thread nD τ).loc main_arg2)) = m ((c : Thread nD τ).loc main_arg2) :=
  (show StableHlo.after hostOps0 (W0 m ρ c) (Proc.devRef .tc main_arg2) = W0 m ρ c (Proc.devRef .tc main_arg2) by kept_all hostOps0).trans rfl

theorem V1_main_arg4 (c : Dev nD) : (V1 m ρ c main_arg4 : Buf (Elt Ideal) ((c : Thread nD τ).loc main_arg4)) = m ((c : Thread nD τ).loc main_arg4) :=
  (show StableHlo.after hostOps0 (W0 m ρ c) (Proc.devRef .tc main_arg4) = W0 m ρ c (Proc.devRef .tc main_arg4) by kept_all hostOps0).trans rfl

theorem V1_main_arg6 (c : Dev nD) : (V1 m ρ c main_arg6 : Buf (Elt Ideal) ((c : Thread nD τ).loc main_arg6)) = m ((c : Thread nD τ).loc main_arg6) :=
  (show StableHlo.after hostOps0 (W0 m ρ c) (Proc.devRef .tc main_arg6) = W0 m ρ c (Proc.devRef .tc main_arg6) by kept_all hostOps0).trans rfl

theorem V1_main_arg8 (c : Dev nD) : (V1 m ρ c main_arg8 : Buf (Elt Ideal) ((c : Thread nD τ).loc main_arg8)) = m ((c : Thread nD τ).loc main_arg8) :=
  (show StableHlo.after hostOps0 (W0 m ρ c) (Proc.devRef .tc main_arg8) = W0 m ρ c (Proc.devRef .tc main_arg8) by kept_all hostOps0).trans rfl

theorem V1_main_arg10 (c : Dev nD) : (V1 m ρ c main_arg10 : Buf (Elt Ideal) ((c : Thread nD τ).loc main_arg10)) = m ((c : Thread nD τ).loc main_arg10) :=
  (show StableHlo.after hostOps0 (W0 m ρ c) (Proc.devRef .tc main_arg10) = W0 m ρ c (Proc.devRef .tc main_arg10) by kept_all hostOps0).trans rfl

theorem V1_main_v0 (c : Dev nD) :
    (V1 m ρ c main_v0 : Cert.Spec.Mat) = transpose S257x257 [1, 0] (m ((c : Thread nD τ).loc main_arg3)) transposes_S257x257_S257x257_1_0 := by
  show StableHlo.after hostOps0 (W0 m ρ c) (Proc.devRef .tc main_v0) = _
  after_results

theorem V1_main_v1 (c : Dev nD) :
    (V1 m ρ c main_v1 : Cert.Spec.Mat) = transpose S257x257 [1, 0] (m ((c : Thread nD τ).loc main_arg5)) transposes_S257x257_S257x257_1_0 := by
  show StableHlo.after hostOps0 (W0 m ρ c) (Proc.devRef .tc main_v1) = _
  after_results

theorem V1_main_v2 (c : Dev nD) :
    (V1 m ρ c main_v2 : Cert.Spec.Mat) = transpose S257x257 [1, 0] (m ((c : Thread nD τ).loc main_arg7)) transposes_S257x257_S257x257_1_0 := by
  show StableHlo.after hostOps0 (W0 m ρ c) (Proc.devRef .tc main_v2) = _
  after_results

theorem V1_main_v3 (c : Dev nD) :
    (V1 m ρ c main_v3 : Cert.Spec.Mat) = transpose S257x257 [1, 0] (m ((c : Thread nD τ).loc main_arg9)) transposes_S257x257_S257x257_1_0 := by
  show StableHlo.after hostOps0 (W0 m ρ c) (Proc.devRef .tc main_v3) = _
  after_results

/-! ## What the second region finds -/

/-- The output bias is as launched. -/
theorem V2_main_arg10 (c : Dev nD) : (V2 m ρ c main_arg10 : Cert.Spec.Vct) = (m ((c : Thread nD τ).loc main_arg10)) :=
  (W2_of_ne m ρ c main_arg10 (by decide)).trans (V1_main_arg10 m ρ c)

/-- The output weight is the host's transpose. -/
theorem V2_main_v3 (c : Dev nD) : (V2 m ρ c main_v3 : Cert.Spec.Mat) = (transpose S257x257 [1, 0] (m ((c : Thread nD τ).loc main_arg9)) transposes_S257x257_S257x257_1_0) :=
  (W2_of_ne m ρ c main_v3 (by decide)).trans (V1_main_v3 m ρ c)

/-- The projected queries are the query layer of the arguments. -/
theorem V2_main_v4_0 (c : Dev nD) :
    (V2 m ρ c main_v4_0 : Cert.Spec.Arr) = Cert.Spec.proj (m ((c : Thread nD τ).loc main_arg0)) (m ((c : Thread nD τ).loc main_arg3)) (m ((c : Thread nD τ).loc main_arg4)) := by
  refine (W2_arr m ρ c 9).trans ((Cert.KernelIdeal.R0Q.final (V1 m ρ) c).trans ?_)
  show Cert.Spec.projT (V1 m ρ c main_arg0 : Cert.Spec.Arr) (V1 m ρ c main_v0 : Cert.Spec.Mat) (V1 m ρ c main_arg4 : Cert.Spec.Vct) = _
  rw [V1_main_arg0 m ρ c, V1_main_v0 m ρ c, V1_main_arg4 m ρ c]
  exact Cert.Spec.projT_transpose _ _ _ _

/-- The projected keys are the key layer of the arguments. -/
theorem V2_main_v4_1 (c : Dev nD) :
    (V2 m ρ c main_v4_1 : Cert.Spec.Arr) = Cert.Spec.proj (m ((c : Thread nD τ).loc main_arg1)) (m ((c : Thread nD τ).loc main_arg5)) (m ((c : Thread nD τ).loc main_arg6)) := by
  refine (W2_arr m ρ c 10).trans ((Cert.KernelIdeal.R0K.final (V1 m ρ) c).trans ?_)
  show Cert.Spec.projT (V1 m ρ c main_arg1 : Cert.Spec.Arr) (V1 m ρ c main_v1 : Cert.Spec.Mat) (V1 m ρ c main_arg6 : Cert.Spec.Vct) = _
  rw [V1_main_arg1 m ρ c, V1_main_v1 m ρ c, V1_main_arg6 m ρ c]
  exact Cert.Spec.projT_transpose _ _ _ _

/-- The projected values are the value layer of the arguments. -/
theorem V2_main_v4_2 (c : Dev nD) :
    (V2 m ρ c main_v4_2 : Cert.Spec.Arr) = Cert.Spec.proj (m ((c : Thread nD τ).loc main_arg2)) (m ((c : Thread nD τ).loc main_arg7)) (m ((c : Thread nD τ).loc main_arg8)) := by
  refine (W2_arr m ρ c 11).trans ((Cert.KernelIdeal.R0V.final (V1 m ρ) c).trans ?_)
  show Cert.Spec.projT (V1 m ρ c main_arg2 : Cert.Spec.Arr) (V1 m ρ c main_v2 : Cert.Spec.Mat) (V1 m ρ c main_arg8 : Cert.Spec.Vct) = _
  rw [V1_main_arg2 m ρ c, V1_main_v2 m ρ c, V1_main_arg8 m ρ c]
  exact Cert.Spec.projT_transpose _ _ _ _

/-! ## The result -/

/-- The result array at the last boundary is G of the arguments. -/
theorem result_eq (c : Dev nD) :
    (W3 m ρ c (Proc.devRef .tc main_v5) : Cert.Spec.Arr) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W3_arr m ρ c 5).trans ((Cert.KernelIdeal.R1.final (V2 m ρ) c).trans ?_)
  show Cert.Spec.attnT (V2 m ρ c main_v4_0 : Cert.Spec.Arr) (V2 m ρ c main_v4_1 : Cert.Spec.Arr) (V2 m ρ c main_v4_2 : Cert.Spec.Arr)
    (V2 m ρ c main_v3 : Cert.Spec.Mat) (V2 m ρ c main_arg10 : Cert.Spec.Vct) = _
  rw [V2_main_v4_0 m ρ c, V2_main_v4_1 m ρ c, V2_main_v4_2 m ρ c, V2_main_v3 m ρ c, V2_main_arg10 m ρ c]
  exact Cert.Spec.attnT_transpose _ _ _ _ _ _

/-- The run of the idealized kernel program: every weakly fair execution terminates, nothing faulting, the result
    array at G of the arguments and the arguments unchanged. -/
theorem run : θ_run defs (onTc (τ := τ) (main (F := Ideal))) ⟨m, fun _ => 0, ρ⟩ (fun r => ∀ c : Dev nD,
      r.2.mem ((c.tc : Thread nD τ).loc main_v5) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_named m ρ)

end Cert.KernelIdeal.Whole

end
-- ==== Proof.RefSide.lean ====
/-
  The reference program's result is the function G of its eleven arguments.

  Read one operation at a time: each of its three linear layers is a contraction over the feature axis of the input
  against row e of the weight, plus the bias broadcast over batch and row; the scores are the contraction of the query
  and key layers over the feature axis, times the scale; the expansion 1 / (1 + exp(−x)) with both ones the word of
  1.0 is the logistic function; the context contracts the weights with the value layer over the key axis; the output
  layer is a fourth linear layer.
-/
import proofs.«109810_j16844861735386_1_alg».proof.Proof.Gen.ReferenceIdeal.Read
import proofs.«109810_j16844861735386_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The query layer. -/
theorem v3_eq (x0 : (⟨S8x2048x257, .f32⟩ : BufTy).Contents (Elt Ideal)) (x3 : (⟨S257x257, .f32⟩ : BufTy).Contents (Elt Ideal)) (x4 : (⟨S257, .f32⟩ : BufTy).Contents (Elt Ideal)) :
    val_main_v3 (F := Ideal) x0 x3 x4 = Cert.Spec.proj x0 x3 x4 := by
  funext i
  rw [val_main_v3_apply, val_main_v0_apply, val_main_v2_apply, val_main_v1_apply]
  have hl : ∀ k : Fin 257, lidx_main_v0 i k = ix3 (i 0) (i 1) k := fun k => funext fun a => by
    match a with | ⟨0, _⟩ => rfl | ⟨1, _⟩ => rfl | ⟨2, _⟩ => rfl
  have hr : ∀ k : Fin 257, ridx_main_v0 i k = ix2 (i 2) k := fun k => funext fun a => by
    match a with | ⟨0, _⟩ => rfl | ⟨1, _⟩ => rfl
  have hb : idx_main_v1 (idx_main_v2 i) = ix1 (i 2) := funext fun a => by
    match a with | ⟨0, _⟩ => rfl
  simp only [hl, hr, hb]
  rfl

/-- The key layer. -/
theorem v7_eq (x1 : (⟨S8x2048x257, .f32⟩ : BufTy).Contents (Elt Ideal)) (x5 : (⟨S257x257, .f32⟩ : BufTy).Contents (Elt Ideal)) (x6 : (⟨S257, .f32⟩ : BufTy).Contents (Elt Ideal)) :
    val_main_v7 (F := Ideal) x1 x5 x6 = Cert.Spec.proj x1 x5 x6 := by
  funext i
  rw [val_main_v7_apply, val_main_v4_apply, val_main_v6_apply, val_main_v5_apply]
  have hl : ∀ k : Fin 257, lidx_main_v4 i k = ix3 (i 0) (i 1) k := fun k => funext fun a => by
    match a with | ⟨0, _⟩ => rfl | ⟨1, _⟩ => rfl | ⟨2, _⟩ => rfl
  have hr : ∀ k : Fin 257, ridx_main_v4 i k = ix2 (i 2) k := fun k => funext fun a => by
    match a with | ⟨0, _⟩ => rfl | ⟨1, _⟩ => rfl
  have hb : idx_main_v5 (idx_main_v6 i) = ix1 (i 2) := funext fun a => by
    match a with | ⟨0, _⟩ => rfl
  simp only [hl, hr, hb]
  rfl

/-- The value layer. -/
theorem v11_eq (x2 : (⟨S8x2048x257, .f32⟩ : BufTy).Contents (Elt Ideal)) (x7 : (⟨S257x257, .f32⟩ : BufTy).Contents (Elt Ideal)) (x8 : (⟨S257, .f32⟩ : BufTy).Contents (Elt Ideal)) :
    val_main_v11 (F := Ideal) x2 x7 x8 = Cert.Spec.proj x2 x7 x8 := by
  funext i
  rw [val_main_v11_apply, val_main_v8_apply, val_main_v10_apply, val_main_v9_apply]
  have hl : ∀ k : Fin 257, lidx_main_v8 i k = ix3 (i 0) (i 1) k := fun k => funext fun a => by
    match a with | ⟨0, _⟩ => rfl | ⟨1, _⟩ => rfl | ⟨2, _⟩ => rfl
  have hr : ∀ k : Fin 257, ridx_main_v8 i k = ix2 (i 2) k := fun k => funext fun a => by
    match a with | ⟨0, _⟩ => rfl | ⟨1, _⟩ => rfl
  have hb : idx_main_v9 (idx_main_v10 i) = ix1 (i 2) := funext fun a => by
    match a with | ⟨0, _⟩ => rfl
  simp only [hl, hr, hb]
  rfl

/-- The weight of key s for query t: the scaled score through 1 / (1 + exp(−x)). -/
theorem v20_at (x0 x1 : (⟨S8x2048x257, .f32⟩ : BufTy).Contents (Elt Ideal)) (x3 : (⟨S257x257, .f32⟩ : BufTy).Contents (Elt Ideal)) (x4 : (⟨S257, .f32⟩ : BufTy).Contents (Elt Ideal)) (x5 : (⟨S257x257, .f32⟩ : BufTy).Contents (Elt Ideal)) (x6 : (⟨S257, .f32⟩ : BufTy).Contents (Elt Ideal)) (b : Fin 8) (t s : Fin 2048) :
    val_main_v20 (F := Ideal) x0 x1 x3 x4 x5 x6 (ix3 b t s)
      = Cert.Spec.weight (Cert.Spec.proj x0 x3 x4) (Cert.Spec.proj x1 x5 x6) b t s := by
  rw [val_main_v20_apply, val_main_v19_apply, val_main_cst_1_apply, val_main_v18_apply, val_main_v17_apply,
    val_main_cst_0_apply, val_main_v16_apply, val_main_v15_apply, val_main_v14_apply, val_main_v13_apply,
    val_main_cst_apply, val_main_v12_apply, v3_eq, v7_eq]
  have hl : ∀ k : Fin 257, lidx_main_v12 (ix3 b t s) k = ix3 b t k := fun k => funext fun a => by
    match a with | ⟨0, _⟩ => rfl | ⟨1, _⟩ => rfl | ⟨2, _⟩ => rfl
  have hr : ∀ k : Fin 257, ridx_main_v12 (ix3 b t s) k = ix3 b s k := fun k => funext fun a => by
    match a with | ⟨0, _⟩ => rfl | ⟨1, _⟩ => rfl | ⟨2, _⟩ => rfl
  simp only [hl, hr, Ideal.ofBits_def, Ideal.ofBits_one_f32]
  rfl

/-- The context at (b, t, e): the weights against the value layer, summed over the keys. -/
theorem v21_at (x0 x1 x2 : (⟨S8x2048x257, .f32⟩ : BufTy).Contents (Elt Ideal)) (x3 : (⟨S257x257, .f32⟩ : BufTy).Contents (Elt Ideal)) (x4 : (⟨S257, .f32⟩ : BufTy).Contents (Elt Ideal)) (x5 : (⟨S257x257, .f32⟩ : BufTy).Contents (Elt Ideal)) (x6 : (⟨S257, .f32⟩ : BufTy).Contents (Elt Ideal)) (x7 : (⟨S257x257, .f32⟩ : BufTy).Contents (Elt Ideal)) (x8 : (⟨S257, .f32⟩ : BufTy).Contents (Elt Ideal))
    (b : Fin 8) (t : Fin 2048) (e : Fin 257) :
    val_main_v21 (F := Ideal) x0 x1 x2 x3 x4 x5 x6 x7 x8 (ix3 b t e)
      = Cert.Spec.ctx (Cert.Spec.proj x0 x3 x4) (Cert.Spec.proj x1 x5 x6) (Cert.Spec.proj x2 x7 x8) b t e := by
  rw [val_main_v21_apply, v11_eq]
  have hl : ∀ s : Fin 2048, lidx_main_v21 (ix3 b t e) s = ix3 b t s := fun s => funext fun a => by
    match a with | ⟨0, _⟩ => rfl | ⟨1, _⟩ => rfl | ⟨2, _⟩ => rfl
  have hr : ∀ s : Fin 2048, ridx_main_v21 (ix3 b t e) s = ix3 b s e := fun s => funext fun a => by
    match a with | ⟨0, _⟩ => rfl | ⟨1, _⟩ => rfl | ⟨2, _⟩ => rfl
  simp only [hl, hr, v20_at]
  rfl

/-- The reference's result array is G of the eleven arguments. -/
theorem v25_eq (x0 x1 x2 : (⟨S8x2048x257, .f32⟩ : BufTy).Contents (Elt Ideal)) (x3 : (⟨S257x257, .f32⟩ : BufTy).Contents (Elt Ideal)) (x4 : (⟨S257, .f32⟩ : BufTy).Contents (Elt Ideal)) (x5 : (⟨S257x257, .f32⟩ : BufTy).Contents (Elt Ideal)) (x6 : (⟨S257, .f32⟩ : BufTy).Contents (Elt Ideal)) (x7 : (⟨S257x257, .f32⟩ : BufTy).Contents (Elt Ideal)) (x8 : (⟨S257, .f32⟩ : BufTy).Contents (Elt Ideal))
    (x9 : (⟨S257x257, .f32⟩ : BufTy).Contents (Elt Ideal)) (x10 : (⟨S257, .f32⟩ : BufTy).Contents (Elt Ideal)) :
    val_main_v25 (F := Ideal) x0 x1 x2 x3 x4 x5 x6 x7 x8 x9 x10
      = Cert.Spec.G x0 x1 x2 x3 x4 x5 x6 x7 x8 x9 x10 := by
  funext i
  obtain ⟨b, t, d, rfl⟩ : ∃ (b : Fin 8) (t : Fin 2048) (d : Fin 257), i = ix3 b t d := ⟨i 0, i 1, i 2, eq_ix3 i⟩
  rw [val_main_v25_apply, val_main_v22_apply, val_main_v24_apply, val_main_v23_apply]
  have hl : ∀ k : Fin 257, lidx_main_v22 (ix3 b t d) k = ix3 b t k := fun k => funext fun a => by
    match a with | ⟨0, _⟩ => rfl | ⟨1, _⟩ => rfl | ⟨2, _⟩ => rfl
  have hr : ∀ k : Fin 257, ridx_main_v22 (ix3 b t d) k = ix2 d k := fun k => funext fun a => by
    match a with | ⟨0, _⟩ => rfl | ⟨1, _⟩ => rfl
  have hb : idx_main_v23 (idx_main_v24 (ix3 b t d)) = ix1 d := funext fun a => by
    match a with | ⟨0, _⟩ => rfl
  simp only [hl, hr, hb, v21_at]
  rfl

end Cert.ReferenceIdeal.RefValue

end
-- ==== Proof.lean ====
/-
  The kernel computes a single-head attention without a softmax, in two pallas_calls: three linear layers
  qp = q·Wqᵀ + bq, kp = k·Wkᵀ + bk, vp = v·Wvᵀ + bv on blocks of 1024 rows (the host hands it each weight already
  transposed), then, on blocks of 512 query rows against a batch's whole key and value slabs,
  out = (logistic((qp·kpᵀ)·scale) · vp)·Woᵀ + bo. The reference spells the same with einsums and writes the logistic
  function as 1 / (1 + exp(−x)).

  Over the extended reals a change of float format is the identity, a matrix product into a zero accumulator is the
  plain sum, and the logistic function is by definition that quotient; the scale is the same single-precision word on
  both sides. So both programs compute, index by index, the function Cert.Spec.G of the eleven arguments, adding and
  multiplying the same terms in the same arrangement: no law of arithmetic beyond reading the sums is used, and the
  finiteness of the inputs is never opened.

  The three frames: the two kernel programs' are the generated frame certificates; the reference's is its generated
  run with the result dropped. The ideal pass rewrote nothing, so the preservation claim is trivial. The equivalence:
  the kernel program's result array is G of the arguments (Proof/KernelValue.lean, over the values of the two regions),
  the reference's is G of its arguments (Proof/RefSide.lean), and the arguments agree.
-/
import proofs.«109810_j16844861735386_1_alg».proof.Defs
import proofs.«109810_j16844861735386_1_alg».proof.Proof.Gen.Kernel
import proofs.«109810_j16844861735386_1_alg».proof.Proof.Gen.Kernel.Skeleton
import proofs.«109810_j16844861735386_1_alg».proof.Proof.Gen.Kernel.Launch
import proofs.«109810_j16844861735386_1_alg».proof.Proof.Gen.Kernel.Points
import proofs.«109810_j16844861735386_1_alg».proof.Proof.Gen.Kernel.Frame
import proofs.«109810_j16844861735386_1_alg».proof.Proof.Gen.KernelIdeal
import proofs.«109810_j16844861735386_1_alg».proof.Proof.Gen.KernelIdeal.Skeleton
import proofs.«109810_j16844861735386_1_alg».proof.Proof.Gen.KernelIdeal.Launch
import proofs.«109810_j16844861735386_1_alg».proof.Proof.Gen.KernelIdeal.Points
import proofs.«109810_j16844861735386_1_alg».proof.Proof.Gen.KernelIdeal.Frame
import proofs.«109810_j16844861735386_1_alg».proof.Proof.Gen.ReferenceIdeal
import proofs.«109810_j16844861735386_1_alg».proof.Proof.Gen.ReferenceIdeal.Run
import proofs.«109810_j16844861735386_1_alg».proof.Proof.Gen.ReferenceIdeal.Read
import proofs.«109810_j16844861735386_1_alg».proof.Proof.Gen.Pre_finite_inputs
import proofs.«109810_j16844861735386_1_alg».proof.Proof.KernelValue
import proofs.«109810_j16844861735386_1_alg».proof.Proof.RefSide
import Idealize.ShloMosaic.Adequacy
import Idealize.ShloMosaic.Init

noncomputable section

namespace Cert.Proof

open Idealize.ShloMosaic Idealize.SL.Sem

/-- The kernel program as printed terminates, faults nowhere and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at G of the arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  refine (Cert.ReferenceIdeal.Read.val_main_v25_eq (F := Ideal) _ _ _ _ _ _ _ _ _ _ _).trans ?_
  rw [Cert.ReferenceIdeal.RefValue.v25_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
